-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x10000 : Shape := ⟨3, ![16, 256, 10000]⟩
abbrev S16x256 : Shape := ⟨2, ![16, 256]⟩
abbrev S16 : Shape := ⟨1, ![16]⟩
abbrev S_ : Shape := ⟨0, ![]⟩

class Facts : Prop where
  bcast_S_S16x256x10000 : S_.BroadcastsInDim S16x256x10000 (![] : Fin 0 → Fin S16x256x10000.rank)
  reducesTo_S16x256x10000_S_d0_1_2 : S16x256x10000.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x256x10000 .f32) (main_arg1 : IVec S16x256 32) (main_arg2 : FVec F S16x256x10000 .f32) (main_arg3 : IVec S16 32) : IVec S_ 1 :=
  let main_v0 : FVec F S16x256x10000 .f32 := Host.absf main_arg0
  let main_cst : FVec F S_ .f32 := constant S_ .f32 0x7F800000#32
  let main_v1 : FVec F S16x256x10000 .f32 := broadcastInDim S16x256x10000 ![] bcast_S_S16x256x10000 main_cst
  let main_v2 : IVec S16x256x10000 1 := cmpf .olt main_v0 main_v1
  let main_c : IVec S_ 1 := constantI S_ 1 1#1
  let main_v3 : IVec S_ 1 := (fun x v => Host.reduce IntOp.andi x v reducesTo_S16x256x10000_S_d0_1_2 h_S_) main_v2 main_c
  let main_v4 : FVec F S16x256x10000 .f32 := Host.absf main_arg2
  let main_cst_0 : FVec F S_ .f32 := constant S_ .f32 0x7F800000#32
  let main_v5 : FVec F S16x256x10000 .f32 := broadcastInDim S16x256x10000 ![] bcast_S_S16x256x10000 main_cst_0
  let main_v6 : IVec S16x256x10000 1 := cmpf .olt main_v4 main_v5
  let main_c_1 : IVec S_ 1 := constantI S_ 1 1#1
  let main_v7 : IVec S_ 1 := (fun x v => Host.reduce IntOp.andi x v reducesTo_S16x256x10000_S_d0_1_2 h_S_) main_v6 main_c_1
  let main_v8 : IVec S_ 1 := andi main_v3 main_v7
  let main_c_2 : IVec S_ 32 := constantI S_ 32 0#32
  let main_v9 : IVec S16x256 32 := broadcastInDim S16x256 ![] bcast_S_S16x256 main_c_2
  let main_v10 : IVec S16x256 1 := cmpi .sge main_arg1 main_v9
  let main_c_3 : IVec S_ 1 := constantI S_ 1 1#1
  let main_v11 : IVec S_ 1 := (fun x v => Host.reduce IntOp.andi x v reducesTo_S16x256_S_d0_1 h_S_) main_v10 main_c_3
  let main_v12 : IVec S_ 1 := andi main_v8 main_v11
  let main_c_4 : IVec S_ 32 := constantI S_ 32 10000#32
  let main_v13 : IVec S16x256 32 := broadcastInDim S16x256 ![] bcast_S_S16x256 main_c_4
  let main_v14 : IVec S16x256 1 := cmpi .slt main_arg1 main_v13
  let main_c_5 : IVec S_ 1 := constantI S_ 1 1#1
  let main_v15 : IVec S_ 1 := (fun x v => Host.reduce IntOp.andi x v reducesTo_S16x256_S_d0_1 h_S_) main_v14 main_c_5
  fn_part1 (F := F) main_v12 main_v15
-- ==== Kernel.lean ====
abbrev S16x256x10000 : Shape := ⟨3, ![16, 256, 10000]⟩
abbrev S16x256 : Shape := ⟨2, ![16, 256]⟩
abbrev S16 : Shape := ⟨1, ![16]⟩
abbrev S16x256x1 : Shape := ⟨3, ![16, 256, 1]⟩
abbrev S16x1x1 : Shape := ⟨3, ![16, 1, 1]⟩
abbrev S1x128x10000 : Shape := ⟨3, ![1, 128, 10000]⟩
abbrev S1x128x1 : Shape := ⟨3, ![1, 128, 1]⟩
abbrev S1x1x1 : Shape := ⟨3, ![1, 1, 1]⟩
abbrev S128x10000 : Shape := ⟨2, ![128, 10000]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

abbrev nBuf : Space → Nat
  | .hbm => 30
  | .vmem => 10
  | .smem => 1
  | _ => 0

abbrev bufTy : (tb : Table) → Fin (tcTables nBuf tb) → BufTy
  | .hbm, ⟨0, _⟩ => ⟨S16x256x10000, .f32⟩
  | .hbm, ⟨1, _⟩ => ⟨S16x256, .i32⟩
  | .hbm, ⟨2, _⟩ => ⟨S16x256x10000, .f32⟩
  | .hbm, ⟨3, _⟩ => ⟨S16x256x1, .i32⟩
  | .hbm, ⟨4, _⟩ => ⟨S16x1x1, .f32⟩
  | .hbm, ⟨5, _⟩ => ⟨S16x1x1, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x128x10000, .f32⟩
  | .local _ .vmem, ⟨1, _⟩ => ⟨S1x128x10000, .f32⟩
  | .local _ .vmem, ⟨2, _⟩ => ⟨S1x128x10000, .f32⟩
  | .local _ .vmem, ⟨3, _⟩ => ⟨S1x128x10000, .f32⟩
  | .local _ .vmem, ⟨4, _⟩ => ⟨S1x128x1, .i32⟩
  | .local _ .vmem, ⟨5, _⟩ => ⟨S1x128x1, .i32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .smem, ⟨0, _⟩ => ⟨S16, .i32⟩
  | _, _ => ⟨S16x256x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v48 : Index := Scalar.indexCast arg0
  ![v48.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S16x256_S16x256x1_0_1 : S16x256.BroadcastsInDim S16x256x1 (![0, 1] : Fin 2 → Fin S16x256x1.rank)
  inb_S1x1x1_S1x1x1_0_0_0 : ∀ a, (![0, 0, 0] : Fin 3 → Nat) a + S1x1x1.size a ≤ S1x1x1.size a
  h_S1x1x1 : 0 < S1x1x1.numel
  inb_S1x128x10000_S1x128x10000_0_0_0 : ∀ a, (![0, 0, 0] : Fin 3 → Nat) a + S1x128x10000.size a ≤ S1x128x10000.size a
  h_S1x128x10000 : 0 < S1x128x10000.numel
  shapeCasts_S1x128x10000_S128x10000 : S1x128x10000.ShapeCasts S128x10000
  reduces_S128x10000_S128 : S128x10000.Reduces [1] S128
  shapeCasts_S128_S128x1 : S128.ShapeCasts S128x1
  broadcasts_S128x1_S128x10000 : S128x1.Broadcasts S128x10000
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  iota_S128x10000_d1_w32 : S128x10000.Iotas .tc 32 [1]
  iota_S128x1_d0_w32 : S128x1.Iotas .tc 32 [0]
  numel1_S1 : S1.numel = 1
  natLt_1_32 : 1 < 32
  reduces_S128x1_S1 : S128x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  shapeCasts_S16x1x1_S16 : S16x1x1.ShapeCasts S16
  bcast_S_S16 : S_.BroadcastsInDim S16 (![] : Fin 0 → Fin S16.rank)
  reducesTo_S16_S_d0 : S16.ReducesTo [0] S_
  h_S_ : 0 < S_.numel
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x10000.size a ≤ S16x256x10000.size a
  hwx0_0 : ∀ i : grid0.Coords, EltTy.bits .f32 = 32 ∨ (Rect.block (s := S16x256x10000) S1x128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x10000.size a ≤ S16x256x10000.size a
  hwx0_1 : ∀ i : grid0.Coords, EltTy.bits .f32 = 32 ∨ (Rect.block (s := S16x256x10000) S1x128x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x256x1.size a
  hwx0_2 : ∀ i : grid0.Coords, EltTy.bits .i32 = 32 ∨ (Rect.block (s := S16x256x1) S1x128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

abbrev spec0_0 : Pipeline.WinSpec sig grid0.rank :=
  Pipeline.WinSpec.ofSpec (Memref.whole main_arg0) S1x128x10000.size reads0_0 false false 2 stage0_0 sem0_0 nbuf0_0 hstage0_0

abbrev spec0_1 : Pipeline.WinSpec sig grid0.rank :=
  Pipeline.WinSpec.ofSpec (Memref.whole main_arg2) S1x128x10000.size reads0_1 false false 2 stage0_1 sem0_1 nbuf0_1 hstage0_1

abbrev spec0_2 : Pipeline.WinSpec sig grid0.rank :=
  Pipeline.WinSpec.ofSpec (Memref.whole main_v0) S1x128x1.size reads0_2 false false 2 stage0_2 sem0_2 nbuf0_2 hstage0_2

abbrev spec0_3 : Pipeline.WinSpec sig grid0.rank :=
  Pipeline.WinSpec.ofSpec (Memref.whole main_v1_0) S1x1x1.size reads0_3 true false 2 stage0_3 sem0_3 nbuf0_3 hstage0_3

abbrev spec0_4 : Pipeline.WinSpec sig grid0.rank :=
  Pipeline.WinSpec.ofSpec (Memref.whole main_v1_1) S1x1x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S16x256x10000 : Shape := ⟨3, ![16, 256, 10000]⟩
abbrev S16x256 : Shape := ⟨2, ![16, 256]⟩
abbrev S16 : Shape := ⟨1, ![16]⟩
abbrev S_ : Shape := ⟨0, ![]⟩
abbrev S16x256x1 : Shape := ⟨3, ![16, 256, 1]⟩
abbrev S256 : Shape := ⟨1, ![256]⟩
abbrev S1x256 : Shape := ⟨2, ![1, 256]⟩
abbrev S16x1 : Shape := ⟨2, ![16, 1]⟩
abbrev S16x256x1x1 : Shape := ⟨4, ![16, 256, 1, 1]⟩
abbrev S1 : Shape := ⟨1, ![1]⟩
abbrev S1x1x1x1 : Shape := ⟨4, ![1, 1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16x256x10000, .f32⟩
  | .hbm, ⟨1, _⟩ => ⟨S16x256, .i32⟩
  | .hbm, ⟨2, _⟩ => ⟨S16x256x10000, .f32⟩
  | .hbm, ⟨3, _⟩ => ⟨S16, .i32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S16x256x1, .f32⟩
  | .hbm, ⟨10, _⟩ => ⟨S16x256x10000, .f32⟩
  | .hbm, ⟨11, _⟩ => ⟨S16x256x10000, .f32⟩
  | .hbm, ⟨12, _⟩ => ⟨S16x256x10000, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S16x256x1, .f32⟩
  | .hbm, ⟨17, _⟩ => ⟨S16x256x10000, .f32⟩
  | .hbm, ⟨18, _⟩ => ⟨S16x256x10000, .f32⟩
  | .hbm, ⟨19, _⟩ => ⟨S256, .i32⟩
  | .hbm, ⟨20, _⟩ => ⟨S1x256, .i32⟩
  | .hbm, ⟨21, _⟩ => ⟨S16x1, .i32⟩
  | .hbm, ⟨22, _⟩ => ⟨S16x256, .i32⟩
  | .hbm, ⟨23, _⟩ => ⟨S16x256, .i32⟩
  | .hbm, ⟨24, _⟩ => ⟨S16x256, .i1⟩
  | .hbm, ⟨25, _⟩ => ⟨S16x256, .f32⟩
  | .hbm, ⟨26, _⟩ => ⟨S16x256x10000, .f32⟩
  | .hbm, ⟨27, _⟩ => ⟨S_, .f32⟩
  | .hbm, ⟨28, _⟩ => ⟨S16x256, .f32⟩
  | .hbm, ⟨29, _⟩ => ⟨S16x256x1, .i32⟩
  | .hbm, ⟨30, _⟩ => ⟨S_, .i32⟩
  | .hbm, ⟨31, _⟩ => ⟨S16x256x1, .i32⟩
  | .hbm, ⟨32, _⟩ => ⟨S16x256x1, .i1⟩
  | .hbm, ⟨33, _⟩ => ⟨S_, .i32⟩
  | .hbm, ⟨34, _⟩ => ⟨S16x256x1, .i32⟩
  | .hbm, ⟨35, _⟩ => ⟨S16x256x1, .i32⟩
  | .hbm, ⟨36, _⟩ => ⟨S16x256x1, .i32⟩
  | .hbm, ⟨37, _⟩ => ⟨S16x256x1x1, .i32⟩
  | .hbm, ⟨38, _⟩ => ⟨S1, .i32⟩
  | .hbm, ⟨39, _⟩ => ⟨S_, .i32⟩
  | .hbm, ⟨40, _⟩ => ⟨S16x256x1x1, .i32⟩
  | .hbm, ⟨41, _⟩ => ⟨S16x256x1x1, .i1⟩
  | .hbm, ⟨42, _⟩ => ⟨S1x1x1x1, .i32⟩
  | .hbm, ⟨43, _⟩ => ⟨S16x256x1x1, .i32⟩
  | .hbm, ⟨44, _⟩ => ⟨S16x256x1x1, .i1⟩
  | .hbm, ⟨45, _⟩ => ⟨S16x256x1x1, .i1⟩
  | .hbm, ⟨46, _⟩ => ⟨S_, .i1⟩
  | .hbm, ⟨47, _⟩ => ⟨S16x256x1, .i1⟩
  | .hbm, ⟨48, _⟩ => ⟨S16x256x1, .f32⟩
  | .hbm, ⟨49, _⟩ => ⟨S_, .f32⟩
  | .hbm, ⟨50, _⟩ => ⟨S16x256x1, .f32⟩
  | .hbm, ⟨51, _⟩ => ⟨S16x256x1, .f32⟩
  | .hbm, ⟨52, _⟩ => ⟨S16x256, .f32⟩
  | .hbm, ⟨53, _⟩ => ⟨S_, .f32⟩
  | .hbm, ⟨54, _⟩ => ⟨S16x256, .f32⟩
  | .hbm, ⟨55, _⟩ => ⟨S_, .f32⟩
  | .hbm, ⟨56, _⟩ => ⟨S16x256, .f32⟩
  | .hbm, ⟨57, _⟩ => ⟨S16x256, .f32⟩
  | .hbm, ⟨58, _⟩ => ⟨S16x256, .f32⟩
  | .hbm, ⟨59, _⟩ => ⟨S_, .f32⟩
  | .hbm, ⟨60, _⟩ => ⟨S16x256, .f32⟩
  | .hbm, ⟨61, _⟩ => ⟨S16x256, .f32⟩
  | .hbm, ⟨62, _⟩ => ⟨S16x256, .f32⟩
  | .hbm, ⟨63, _⟩ => ⟨S16x256, .f32⟩
  | .hbm, ⟨64, _⟩ => ⟨S_, .f32⟩
  | .hbm, ⟨65, _⟩ => ⟨S16, .f32⟩
  | .hbm, ⟨66, _⟩ => ⟨S16x256, .f32⟩
  | .hbm, ⟨67, _⟩ => ⟨S_, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S16x256x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v11 : Ref sig .tc := ⟨.hbm, 51, rfl⟩
abbrev main_v12 : Ref sig .tc := ⟨.hbm, 52, rfl⟩
abbrev main_cst_0 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_3 : Ref sig .tc := ⟨.hbm, 64, rfl⟩
abbrev main_v21 : Ref sig .tc := ⟨.hbm, 65, rfl⟩
abbrev main_v22 : Ref sig .tc := ⟨.hbm, 66, rfl⟩
abbrev main_cst_4 : Ref sig .tc := ⟨.hbm, 67, rfl⟩
abbrev main_v23 : Ref sig .tc := ⟨.hbm, 68, rfl⟩
abbrev main_cst_5 : Ref sig .tc := ⟨.hbm, 69, rfl⟩
abbrev main_v24 : Ref sig .tc := ⟨.hbm, 70, rfl⟩
abbrev main_v25 : Ref sig .tc := ⟨.hbm, 71, rfl⟩
abbrev main_cst_6 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_7 : Ref sig .tc := ⟨.hbm, 76, rfl⟩
abbrev main_v29 : Ref sig .tc := ⟨.hbm, 77, rfl⟩
abbrev main_v30 : Ref sig .tc := ⟨.hbm, 78, rfl⟩
abbrev main_cst_8 : Ref sig .tc := ⟨.hbm, 79, rfl⟩
abbrev main_v31 : Ref sig .tc := ⟨.hbm, 80, rfl⟩
abbrev main_v32 : Ref sig .tc := ⟨.hbm, 81, rfl⟩
abbrev main_cst_9 : Ref sig .tc := ⟨.hbm, 82, rfl⟩
abbrev main_v33 : Ref sig .tc := ⟨.hbm, 83, rfl⟩
abbrev main_v34 : Ref sig .tc := ⟨.hbm, 84, rfl⟩
abbrev main_cst_10 : Ref sig .tc := ⟨.hbm, 85, rfl⟩
abbrev main_v35 : Ref sig .tc := ⟨.hbm, 86, rfl⟩
abbrev main_cst_11 : Ref sig .tc := ⟨.hbm, 87, rfl⟩
abbrev main_v36 : Ref sig .tc := ⟨.hbm, 88, rfl⟩
abbrev main_cst_12 : Ref sig .tc := ⟨.hbm, 89, rfl⟩
abbrev main_v37 : Ref sig .tc := ⟨.hbm, 90, rfl⟩

abbrev nD : Nat := 1
abbrev τ : Topo := Topo.v7x

variable {F : FTy → Type} [FloatOps F]

class Facts₀ : Prop where
  reducesTo_S16x256x10000_S16x256_d2 : S16x256x10000.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x10000_0_1_2 : S16x256x1.BroadcastsInDim S16x256x10000 (![0, 1, 2] : Fin 3 → Fin S16x256x10000.rank)
  bcast_S256_S1x256_1 : S256.BroadcastsInDim S1x256 (![1] : Fin 1 → Fin S1x256.rank)
  bcast_S16_S16x1_0 : S16.BroadcastsInDim S16x1 (![0] : Fin 1 → Fin S16x1.rank)
  bcast_S1x256_S16x256_0_1 : S1x256.BroadcastsInDim S16x256 (![0, 1] : Fin 2 → Fin S16x256.rank)
  bcast_S16x1_S16x256_0_1 : S16x1.BroadcastsInDim S16x256 (![0, 1] : Fin 2 → Fin S16x256.rank)
  bcast_S_S16x256x1 : S_.BroadcastsInDim S16x256x1 (![] : Fin 0 → Fin S16x256x1.rank)
  shapeCasts_S16x256x1_S16x256x1x1 : S16x256x1.ShapeCasts S16x256x1x1
  bcast_S_S16x256x1x1 : S_.BroadcastsInDim S16x256x1x1 (![] : Fin 0 → Fin S16x256x1x1.rank)
  bcast_S1_S1x1x1x1_3 : S1.BroadcastsInDim S1x1x1x1 (![3] : Fin 1 → Fin S1x1x1x1.rank)
  bcast_S1x1x1x1_S16x256x1x1_0_1_2_3 : S1x1x1x1.BroadcastsInDim S16x256x1x1 (![0, 1, 2, 3] : Fin 4 → Fin S16x256x1x1.rank)
  reducesTo_S16x256x1x1_S16x256x1_d3 : S16x256x1x1.ReducesTo [3] S16x256x1
  shapeCasts_S16x256x1_S16x256 : S16x256x1.ShapeCasts S16x256
  reducesTo_S16x256_S16_d1 : S16x256.ReducesTo [1] S16
  bcast_S_S16 : S_.BroadcastsInDim S16 (![] : Fin 0 → Fin S16.rank)
  reducesTo_S16_S_d0 : S16.ReducesTo [0] S_
  gather_S16x256x10000_S16x256x1x1_S16x256x1_n_2_01_01_2_3_111_wf : GatherDims.WF S16x256x10000 S16x256x1x1 S16x256x1 [] [2] [0, 1] [2] [0, 1] 3 ![1, 1, 1]

variable [Facts₀]

def gather_S16x256x10000_S16x256x1x1_S16x256x1_n_2_01_01_2_3_111 : GatherDims S16x256x10000 S16x256x1x1 S16x256x1 where
  offsetDims := []
  collapsedSliceDims := [2]
  operandBatchingDims := [0, 1]
  startIndicesBatchingDims := [0, 1]
  startIndexMap := [2]
  indexVectorDim := 3
  sliceSizes := ![1, 1, 1]
  wf := gather_S16x256x10000_S16x256x1x1_S16x256x1_n_2_01_01_2_3_111_wf

class Facts : Prop extends Facts₀ where

variable [Facts]
-- ==== Proof.KernelPieces.lean ====
/-
  What one grid point's body leaves in the two accumulators, as the body's arithmetic of what it loaded.

  At the first tile of a batch element the body first stores zero and then stores the zero read back plus the tile's
  masked sum; at the second tile it stores the carried contents plus the tile's masked sum. Each accumulator is one
  element wide, so the last store through the whole block is what the block holds.
-/
import proofs.«424559_j75548474737114_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a rank-3 block. -/
theorem off3_zero : (![0, 0, 0] : Fin 3 → Nat) = fun _ => 0 := funext fun a => by fin_cases a <;> rfl

/-- The sequence length of the grid point's batch element, as the body loads it from the prefetched lengths. -/
def lenW (c : Dev nD) (i : grid0.Coords) (xt0 : TbBuf0 (F := F) c tbM0_0) : Elt F .i32 :=
  View.readAt (Elt F) tbM0_0.view (Rect.unit (s := S16) (k0_off1 i) S1.size (k0_off1_inb i)).toLoadRect xt0
    (Shape.Idx.first Nat.one_pos)

/-- First tile, soft accumulator: zero, then zero plus the tile's masked soft sum. -/
theorem out0_A_3_eq (c : Dev nD) (i : grid0.Coords) (arg3 : Memref sig .tc .vmem S1x128x10000 .f32) (harg3 : arg3.IsWhole) (arg4 : Memref sig .tc .vmem S1x128x10000 .f32) (harg4 : arg4.IsWhole) (arg5 : Memref sig .tc .vmem S1x128x1 .i32) (harg5 : arg5.IsWhole) (arg6 : Memref sig .tc .vmem S1x1x1 .f32) (harg6 : arg6.IsWhole) (arg7 : Memref sig .tc .vmem S1x1x1 .f32) (harg7 : arg7.IsWhole) (hc0 : cond0_0 i) (x0 : Vec F S1x128x10000 .f32) (x1 : Vec F S1x128x10000 .f32) (x2 : Vec F S1x128x1 .i32) (xt0 : TbBuf0 (F := F) c tbM0_0) :
    out0_A_3 c i arg3 harg3 arg4 harg4 arg5 harg5 arg6 harg6 arg7 harg7 hc0 x0 x1 x2 xt0
      = k0_pay2 (BitVec.ofNat 32 (i 1).val) (k0_pay8 x0 x1) (lenW c i xt0) (k0_pay4 (F := F)) := by
  unfold out0_A_3
  rw [View.read_writes_eq_canon _ _ _ (cover0_A_3 c i arg3 harg3 arg4 harg4 arg5 harg5 arg6 harg6 arg7 harg7 hc0 x0 x1 x2 xt0)]
  unfold kernelRun0_A lenW
  dsimp only
  sl_unfold_words
  rw [View.canon_cons_unit_zero (S := S1x1x1) off3_zero, View.readCov_unit_zero (S := S1x1x1) _ off3_zero]
  simp only [View.readAt_eq_ld, harg3.read_unread, harg4.read_unread, View.ld_unit_zero (S := S1x128x10000) off3_zero]

/-- First tile, label-smoothed accumulator. -/
theorem out0_A_4_eq (c : Dev nD) (i : grid0.Coords) (arg3 : Memref sig .tc .vmem S1x128x10000 .f32) (harg3 : arg3.IsWhole) (arg4 : Memref sig .tc .vmem S1x128x10000 .f32) (harg4 : arg4.IsWhole) (arg5 : Memref sig .tc .vmem S1x128x1 .i32) (harg5 : arg5.IsWhole) (arg6 : Memref sig .tc .vmem S1x1x1 .f32) (harg6 : arg6.IsWhole) (arg7 : Memref sig .tc .vmem S1x1x1 .f32) (harg7 : arg7.IsWhole) (hc0 : cond0_0 i) (x0 : Vec F S1x128x10000 .f32) (x1 : Vec F S1x128x10000 .f32) (x2 : Vec F S1x128x1 .i32) (xt0 : TbBuf0 (F := F) c tbM0_0) :
    out0_A_4 c i arg3 harg3 arg4 harg4 arg5 harg5 arg6 harg6 arg7 harg7 hc0 x0 x1 x2 xt0
      = k0_pay3 (BitVec.ofNat 32 (i 1).val) (k0_pay9 x0) (k0_pay10 x0 x2) (lenW c i xt0) (k0_pay5 (F := F)) := by
  unfold out0_A_4
  rw [View.read_writes_eq_canon _ _ _ (cover0_A_4 c i arg3 harg3 arg4 harg4 arg5 harg5 arg6 harg6 arg7 harg7 hc0 x0 x1 x2 xt0)]
  unfold kernelRun0_A lenW
  dsimp only
  sl_unfold_words
  rw [View.canon_cons_unit_zero (S := S1x1x1) off3_zero, View.readCov_unit_zero (S := S1x1x1) _ off3_zero]
  simp only [View.readAt_eq_ld, harg3.read_unread, harg5.read_unread, View.ld_unit_zero (S := S1x128x10000) off3_zero,
    View.ld_unit_zero (S := S1x128x1) off3_zero]

/-- Second tile, soft accumulator: the carried contents plus the tile's masked soft sum. -/
theorem out0_B_3_eq (c : Dev nD) (i : grid0.Coords) (arg3 : Memref sig .tc .vmem S1x128x10000 .f32) (harg3 : arg3.IsWhole) (arg4 : Memref sig .tc .vmem S1x128x10000 .f32) (harg4 : arg4.IsWhole) (arg5 : Memref sig .tc .vmem S1x128x1 .i32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (x0 : Vec F S1x128x10000 .f32) (x1 : Vec F S1x128x10000 .f32) (x2 : Vec F S1x128x1 .i32) (xt0 : TbBuf0 (F := F) c tbM0_0) (xo3 : Vec F S1x1x1 .f32) (xo4 : Vec F S1x1x1 .f32) :
    out0_B_3 c i arg3 harg3 arg4 harg4 arg5 harg5 arg6 harg6 arg7 harg7 hc0 x0 x1 x2 xt0 xo3 xo4
      = k0_pay2 (BitVec.ofNat 32 (i 1).val) (k0_pay8 x0 x1) (lenW c i xt0) xo3 := by
  unfold out0_B_3
  rw [View.read_writes_eq_canon _ _ _ (cover0_B_3 c i arg3 harg3 arg4 harg4 arg5 harg5 arg6 harg6 arg7 harg7 hc0 x0 x1 x2 xt0 xo3 xo4)]
  unfold kernelRun0_B lenW
  dsimp only
  sl_unfold_words
  rw [View.canon_unit_zero (S := S1x1x1) off3_zero]
  simp only [View.readAt_eq_ld, harg3.read_unread, harg4.read_unread, harg6.read_unread,
    View.ld_unit_zero (S := S1x128x10000) off3_zero, View.ld_unit_zero (S := S1x1x1) off3_zero]

/-- Second tile, label-smoothed accumulator. -/
theorem out0_B_4_eq (c : Dev nD) (i : grid0.Coords) (arg3 : Memref sig .tc .vmem S1x128x10000 .f32) (harg3 : arg3.IsWhole) (arg4 : Memref sig .tc .vmem S1x128x10000 .f32) (harg4 : arg4.IsWhole) (arg5 : Memref sig .tc .vmem S1x128x1 .i32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (x0 : Vec F S1x128x10000 .f32) (x1 : Vec F S1x128x10000 .f32) (x2 : Vec F S1x128x1 .i32) (xt0 : TbBuf0 (F := F) c tbM0_0) (xo3 : Vec F S1x1x1 .f32) (xo4 : Vec F S1x1x1 .f32) :
    out0_B_4 c i arg3 harg3 arg4 harg4 arg5 harg5 arg6 harg6 arg7 harg7 hc0 x0 x1 x2 xt0 xo3 xo4
      = k0_pay3 (BitVec.ofNat 32 (i 1).val) (k0_pay9 x0) (k0_pay10 x0 x2) (lenW c i xt0) xo4 := by
  unfold out0_B_4
  rw [View.read_writes_eq_canon _ _ _ (cover0_B_4 c i arg3 harg3 arg4 harg4 arg5 harg5 arg6 harg6 arg7 harg7 hc0 x0 x1 x2 xt0 xo3 xo4)]
  unfold kernelRun0_B lenW
  dsimp only
  sl_unfold_words
  rw [View.canon_unit_zero (S := S1x1x1) off3_zero]
  simp only [View.readAt_eq_ld, harg3.read_unread, harg5.read_unread, harg7.read_unread,
    View.ld_unit_zero (S := S1x128x10000) off3_zero, View.ld_unit_zero (S := S1x128x1) off3_zero,
    View.ld_unit_zero (S := S1x1x1) off3_zero]

end Cert.KernelIdeal.Gen

end
-- ==== Proof.Spec.lean ====
/-
  The distillation loss, as the two programs compute it, over the extended reals.

  A row is the 10000 logits of one token. Both programs shift a row by its largest entry m, take
  L = log (Σ_v exp (x_v - m)), and read the log-probabilities lp_v = (x_v - m) - L.  The reference forms lp and then
  sums it three ways (against the soft labels, at the label, and over the whole row); the kernel never forms lp and
  computes the same three numbers from Σ x·s, Σ s, Σ x and the label's logit, with lse = L + m.  Each token's two
  terms are weighted by a 0/1 mask (position below the sequence length) and summed over the 256 positions of a batch
  element: the reference in one sum, the kernel as two tiles of 128 positions added to a zero start.  From the two
  per-batch vectors both programs finish with the same closing arithmetic (the last section).

  Nothing here is proved; these are the definitions the two value readings and the algebra between them are stated over.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- One token's logits, or its soft labels. -/
abbrev Row := Fin 10000 → EReal

/-- The value both running maxima start from: the pattern of -∞. -/
def negInf : EReal := Ideal.ofBits .f32 0xFF800000#32
/-- The weight 1 - 0.1 of the label's log-probability, as both programs carry it. -/
def cKeep : EReal := Ideal.ofBits .f32 0x3F666666#32
/-- The weight 0.1 / 9999 of every other log-probability, as both programs carry it. -/
def cSmooth : EReal := Ideal.ofBits .f32 0x3727C9F8#32
/-- The vocabulary size 10000 as the kernel multiplies by it. -/
def cVocab : EReal := Ideal.ofBits .f32 0x461C4000#32

/-- A row's largest entry. -/
def rowMax (x : Row) : EReal := (Finset.univ : Finset (Fin 10000)).fold max negInf x
/-- log Σ_v exp (x_v - m), m the row's largest entry. -/
def rowLogSum (x : Row) : EReal := Ideal.log (∑ v : Fin 10000, Ideal.exp (x v - rowMax x))

/-! ## One token, as the kernel computes it -/

/-- log Σ_v exp x_v, as shifted sum plus shift. -/
def kLse (x : Row) : EReal := rowLogSum x + rowMax x
/-- Σ_v lp_v s_v, from Σ x·s and Σ s. -/
def kSoftTok (x s : Row) : EReal := (∑ v : Fin 10000, x v * s v) - kLse x * (∑ v : Fin 10000, s v)
/-- Σ_v lp_v, from Σ x. -/
def kLpSum (x : Row) : EReal := (∑ v : Fin 10000, x v) - cVocab * kLse x
/-- lp at the label: the label's logit picked out by comparing every column with the label, minus lse. -/
def kLpY (x : Row) (y : BitVec 32) : EReal :=
  (∑ v : Fin 10000, Scalar.select (IntOp.cmpi .eq (BitVec.ofNat 32 v.val) y) (x v) (0 : EReal)) - kLse x
/-- The label-smoothed term of one token. -/
def kHardTok (x : Row) (y : BitVec 32) : EReal := cKeep * kLpY x y + cSmooth * (kLpSum x - kLpY x y)
/-- The mask bit as the kernel converts it: the comparison's bit widened to a word and read signed. -/
def kMask (pos len : BitVec 32) : EReal := ((((IntOp.cmpi .slt pos len).setWidth 32).toInt : ℝ) : EReal)
/-- The position of row r of tile t. -/
def tilePos (r : Fin 128) (t : BitVec 32) : BitVec 32 := BitVec.ofNat 32 r.val + t * 128#32
/-- One tile's masked sum of the soft term. -/
def kTileSoft (x s : Fin 128 → Row) (t len : BitVec 32) : EReal :=
  ∑ r : Fin 128, kSoftTok (x r) (s r) * kMask (tilePos r t) len
/-- One tile's masked sum of the label-smoothed term. -/
def kTileHard (x : Fin 128 → Row) (y : Fin 128 → BitVec 32) (t len : BitVec 32) : EReal :=
  ∑ r : Fin 128, kHardTok (x r) (y r) * kMask (tilePos r t) len

/-! ## One token, as the reference computes it -/

/-- The log-probabilities of a row. -/
def lp (x : Row) : Row := fun v => (x v - rowMax x) - rowLogSum x
/-- A label read as a column: signed, clamped into the vocabulary. -/
def labelIdx (y : BitVec 32) : Fin 10000 := ⟨min y.toInt.toNat 9999, by omega⟩
def rSoftTok (x s : Row) : EReal := ∑ v : Fin 10000, lp x v * s v
def rLpSum (x : Row) : EReal := ∑ v : Fin 10000, lp x v
def rLpY (x : Row) (y : BitVec 32) : EReal := lp x (labelIdx y)
def rHardTok (x : Row) (y : BitVec 32) : EReal := cKeep * rLpY x y + cSmooth * (rLpSum x - rLpY x y)
/-- The mask bit as the reference converts it: the comparison's bit read unsigned. -/
def rMask (pos len : BitVec 32) : EReal := (((IntOp.cmpi .slt pos len).toNat : ℝ) : EReal)

/-! ## The arrays -/

abbrev S16x256x10000 : Shape := ⟨3, ![16, 256, 10000]⟩
abbrev S16x256 : Shape := ⟨2, ![16, 256]⟩
abbrev S16 : Shape := ⟨1, ![16]⟩
abbrev S_ : Shape := ⟨0, ![]⟩

/-- Token j of batch element b. -/
def rowOf (X : S16x256x10000.Idx → EReal) (b : Fin 16) (j : Fin 256) : Row := fun v => X (ix3 b j v)
/-- The 128 tokens of tile t of batch element b. -/
def tileRows (X : S16x256x10000.Idx → EReal) (b : Fin 16) (t : Fin 2) : Fin 128 → Row :=
  fun r => rowOf X b ⟨128 * t.val + r.val, by omega⟩
/-- Their labels. -/
def tileLabels (Ys : S16x256.Idx → BitVec 32) (b : Fin 16) (t : Fin 2) : Fin 128 → BitVec 32 :=
  fun r => Ys (ix2 b ⟨128 * t.val + r.val, by omega⟩)

/-- The reference's soft sum of batch element b. -/
def rSoftB (X S : S16x256x10000.Idx → EReal) (Yl : S16.Idx → BitVec 32) (b : Fin 16) : EReal :=
  ∑ j : Fin 256, rSoftTok (rowOf X b j) (rowOf S b j) * rMask (BitVec.ofNat 32 j.val) (Yl (ix1 b))
/-- The reference's label-smoothed sum of batch element b. -/
def rHardB (X : S16x256x10000.Idx → EReal) (Ys : S16x256.Idx → BitVec 32) (Yl : S16.Idx → BitVec 32) (b : Fin 16) : EReal :=
  ∑ j : Fin 256, rHardTok (rowOf X b j) (Ys (ix2 b j)) * rMask (BitVec.ofNat 32 j.val) (Yl (ix1 b))
/-- The kernel's soft sum of batch element b: a zero start, then the two tiles in order. -/
def kSoftB (X S : S16x256x10000.Idx → EReal) (Yl : S16.Idx → BitVec 32) (b : Fin 16) : EReal :=
  (0 + kTileSoft (tileRows X b 0) (tileRows S b 0) 0#32 (Yl (ix1 b)))
    + kTileSoft (tileRows X b 1) (tileRows S b 1) 1#32 (Yl (ix1 b))
/-- The kernel's label-smoothed sum of batch element b. -/
def kHardB (X : S16x256x10000.Idx → EReal) (Ys : S16x256.Idx → BitVec 32) (Yl : S16.Idx → BitVec 32) (b : Fin 16) : EReal :=
  (0 + kTileHard (tileRows X b 0) (tileLabels Ys b 0) 0#32 (Yl (ix1 b)))
    + kTileHard (tileRows X b 1) (tileLabels Ys b 1) 1#32 (Yl (ix1 b))

/-! ## What the inputs are assumed to be -/

/-- An extended real that is a real number. -/
def IsReal (a : EReal) : Prop := ∃ r : ℝ, a = (r : EReal)
/-- A label that is a vocabulary index. -/
def InVocab (y : BitVec 32) : Prop := 0 ≤ y.toInt ∧ y.toInt < 10000

/-! ## The closing arithmetic, shared by the two programs

From the per-batch vectors: the blend 0.5·a + 0.5·b, and of a vector its negated sum divided by 16. The shape
facts are arguments (each program states its own; they are propositions). -/

section Closing
variable {F : FTy → Type} [FloatOps F]

/-- 0.5 · a + 0.5 · b, entry by entry. -/
def blend (hb : S_.BroadcastsInDim S16 (![] : Fin 0 → Fin S16.rank)) (a b : FVec F S16 .f32) : FVec F S16 .f32 :=
  addf (mulf (broadcastInDim S16 ![] hb (constant S_ .f32 0x3F000000#32)) a)
    (mulf (broadcastInDim S16 ![] hb (constant S_ .f32 0x3F000000#32)) b)
/-- -(Σ a) / 16. -/
def negMean (hr : S16.ReducesTo [0] S_) (h0 : 0 < S_.numel) (a : FVec F S16 .f32) : FVec F S_ .f32 :=
  Host.divf (Host.negf (Host.reduceAdd a (constant S_ .f32 0x00000000#32) hr h0)) (constant S_ .f32 0x41800000#32)

end Closing

end Cert.Spec

end
-- ==== Proof.KernelPayload.lean ====
/-
  The kernel body's stored values, read at their one index, as the per-tile sums of the specification.
-/
import proofs.«424559_j75548474737114_3_alg».proof.Proof.Gen.KernelIdeal.Skeleton
import proofs.«424559_j75548474737114_3_alg».proof.Proof.Spec
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

open scoped BigOperators

/-- A block with a leading unit axis viewed without it: entry (r, v) is the block's entry (0, r, v). -/
theorem pay6_apply (x0 : Vec Ideal S1x128x10000 .f32) (r : Fin 128) (v : Fin 10000) :
    k0_pay6 (F := Ideal) x0 (ix2 r v) = x0 (ix3 (0 : Fin 1) r v) := by
  unfold k0_pay6
  refine shapeCast_apply _ _ _ _ ?_
  rw [Shape.rowMajor_val_three, Shape.rowMajor_val_two]
  show ((0 * 128 + r.val) * 10000 + v.val) = r.val * 10000 + v.val
  omega

/-- A per-row vector kept as a column: entry (r, 0) is the vector's entry r. -/
theorem cast128_apply {α : Type} (w : S128.Idx → α) (r : Fin 128) :
    shapeCast S128x1 w shapeCasts_S128_S128x1 (ix2 r (0 : Fin 1)) = w (ix1 r) := by
  refine shapeCast_apply _ _ _ _ ?_
  rw [Shape.rowMajor_val_one, Shape.rowMajor_val_two]
  show r.val = r.val * 1 + 0
  omega

/-- The labels' block viewed as a column: entry (r, 0) is the block's entry (0, r, 0). -/
theorem castLabel_apply {α : Type} (w : S1x128x1.Idx → α) (r : Fin 128) :
    shapeCast S128x1 w shapeCasts_S1x128x1_S128x1 (ix2 r (0 : Fin 1)) = w (ix3 (0 : Fin 1) r (0 : Fin 1)) := by
  refine shapeCast_apply _ _ _ _ ?_
  rw [Shape.rowMajor_val_three, Shape.rowMajor_val_two]
  show ((0 * 128 + r.val) * 1 + 0) = r.val * 1 + 0
  omega

/-- Row r with column v put back in is the index (r, v). -/
theorem lift_row (r : Fin 128) (v : Fin 10000) :
    reduces_S128x10000_S128.lift (ix1 r) v = ix2 r v := by
  funext c
  match c with
  | ⟨0, _⟩ => exact Fin.ext rfl
  | ⟨1, _⟩ => exact Fin.ext rfl

/-- The one column entry with row k put back in is the index (k, 0). -/
theorem lift_col (k : Fin 128) :
    reduces_S128x1_S1.lift (ix1 (0 : Fin 1)) k = ix2 k (0 : Fin 1) := by
  funext c
  match c with
  | ⟨0, _⟩ => exact Fin.ext rfl
  | ⟨1, _⟩ => exact Fin.ext rfl

/-- The lane maximum of row r is the specification's row maximum of that row. -/
theorem rowMax_apply (x0 : Vec Ideal S1x128x10000 .f32) (r : Fin 128) :
    multiReduction (F := Ideal) .maximumf [1] S128 (k0_pay6 (F := Ideal) x0) 0xFF800000#32 reduces_S128x10000_S128 (.inl rfl) rfl (ix1 r)
      = Cert.Spec.rowMax (fun v => x0 (ix3 (0 : Fin 1) r v)) := by
  refine (Ideal.multiReduction_maximumf_single _ _ _ _ _ _).trans ?_
  unfold Cert.Spec.rowMax Cert.Spec.negInf
  refine congrArg (fun f : Fin 10000 → EReal => Finset.fold max (Ideal.ofBits .f32 0xFF800000#32) f Finset.univ) ?_
  funext v
  exact (congrArg (k0_pay6 (F := Ideal) x0) (lift_row r v)).trans (pay6_apply x0 r v)

/-- The lane sum of row r is the sum over the row's 10000 columns. -/
theorem rowSum_apply (w : FVec Ideal S128x10000 .f32) (r : Fin 128) :
    multiReduction (F := Ideal) .add [1] S128 w 0x00000000#32 reduces_S128x10000_S128 (.inl rfl) rfl (ix1 r)
      = ∑ v : Fin 10000, w (ix2 r v) := by
  refine (Ideal.multiReduction_add_single _ _ _ _ _ _).trans ?_
  exact Finset.sum_congr rfl fun v _ => congrArg w (lift_row r v)

/-- A column spread along the lanes: entry (r, v) is the column's entry (r, 0). -/
theorem bcast_apply {α : Type} (w : S128x1.Idx → α) (r : Fin 128) (v : Fin 10000) :
    broadcastTo S128x10000 w broadcasts_S128x1_S128x10000 (ix2 r v) = w (ix2 r (0 : Fin 1)) := by
  refine broadcastTo_apply _ _ _ _ ?_
  intro a
  match a with
  | ⟨0, _⟩ => rfl
  | ⟨1, _⟩ => rfl

/-- The exponential and the logarithm of a vector are taken entry by entry. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- The row maximum kept as a column, at (r, 0). -/
theorem keepMax_apply (x0 : Vec Ideal S1x128x10000 .f32) (r : Fin 128) :
    shapeCast S128x1 (multiReduction (F := Ideal) .maximumf [1] S128 (k0_pay6 (F := Ideal) x0) 0xFF800000#32
      reduces_S128x10000_S128 (.inl rfl) rfl) shapeCasts_S128_S128x1 (ix2 r (0 : Fin 1))
      = Cert.Spec.rowMax (fun v => x0 (ix3 (0 : Fin 1) r v)) :=
  (cast128_apply _ r).trans (rowMax_apply x0 r)

/-- A lane sum kept as a column, at (r, 0). -/
theorem keepSum_apply (w : FVec Ideal S128x10000 .f32) (r : Fin 128) :
    shapeCast S128x1 (multiReduction (F := Ideal) .add [1] S128 w 0x00000000#32
      reduces_S128x10000_S128 (.inl rfl) rfl) shapeCasts_S128_S128x1 (ix2 r (0 : Fin 1))
      = ∑ v : Fin 10000, w (ix2 r v) :=
  (cast128_apply _ r).trans (rowSum_apply w r)

/-- Row r's log-sum-exp: the log of the shifted exponentials' sum, plus the shift. -/
theorem pay7_apply (x0 : Vec Ideal S1x128x10000 .f32) (r : Fin 128) :
    k0_pay7 (F := Ideal) x0 (ix2 r (0 : Fin 1)) = Cert.Spec.kLse (fun v => x0 (ix3 (0 : Fin 1) r v)) := by
  unfold k0_pay7 Cert.Spec.kLse Cert.Spec.rowLogSum
  refine (addf_apply _ _ _).trans ?_
  refine congrArg₂ (· + ·) ?_ (keepMax_apply x0 r)
  refine (log_apply _ _).trans (congrArg Ideal.log ?_)
  refine (keepSum_apply _ r).trans ?_
  refine Finset.sum_congr rfl fun v _ => ?_
  refine (exp_apply _ _).trans (congrArg Ideal.exp ?_)
  refine (subf_apply _ _ _).trans ?_
  refine congrArg₂ (· - ·) (pay6_apply x0 r v) ?_
  exact (bcast_apply _ r v).trans (keepMax_apply x0 r)

/-- Row r's soft term: Σ x·s minus the log-sum-exp times Σ s. -/
theorem pay8_apply (x0 x1 : Vec Ideal S1x128x10000 .f32) (r : Fin 128) :
    k0_pay8 (F := Ideal) x0 x1 (ix2 r (0 : Fin 1))
      = Cert.Spec.kSoftTok (fun v => x0 (ix3 (0 : Fin 1) r v)) (fun v => x1 (ix3 (0 : Fin 1) r v)) := by
  unfold k0_pay8 Cert.Spec.kSoftTok
  refine (subf_apply _ _ _).trans ?_
  refine congrArg₂ (· - ·) ?_ ?_
  · refine (keepSum_apply _ r).trans (Finset.sum_congr rfl fun v _ => ?_)
    refine (mulf_apply _ _ _).trans ?_
    exact congrArg₂ (· * ·) (pay6_apply x0 r v) (pay6_apply x1 r v)
  · refine (mulf_apply _ _ _).trans ?_
    refine congrArg₂ (· * ·) (pay7_apply x0 r) ?_
    exact (keepSum_apply _ r).trans (Finset.sum_congr rfl fun v _ => pay6_apply x1 r v)

/-- Row r's sum of log-probabilities: Σ x minus 10000 times the log-sum-exp. -/
theorem pay9_apply (x0 : Vec Ideal S1x128x10000 .f32) (r : Fin 128) :
    k0_pay9 (F := Ideal) x0 (ix2 r (0 : Fin 1)) = Cert.Spec.kLpSum (fun v => x0 (ix3 (0 : Fin 1) r v)) := by
  unfold k0_pay9 Cert.Spec.kLpSum Cert.Spec.cVocab
  refine (subf_apply _ _ _).trans ?_
  refine congrArg₂ (· - ·) ?_ ?_
  · exact (keepSum_apply _ r).trans (Finset.sum_congr rfl fun v _ => pay6_apply x0 r v)
  · refine (mulf_apply _ _ _).trans ?_
    exact congrArg₂ (· * ·) rfl (pay7_apply x0 r)

/-- Row r's log-probability at its label: the label's logit, picked out column by column, minus the log-sum-exp. -/
theorem pay10_apply (x0 : Vec Ideal S1x128x10000 .f32) (x2 : Vec Ideal S1x128x1 .i32) (r : Fin 128) :
    k0_pay10 (F := Ideal) x0 x2 (ix2 r (0 : Fin 1))
      = Cert.Spec.kLpY (fun v => x0 (ix3 (0 : Fin 1) r v)) (x2 (ix3 (0 : Fin 1) r (0 : Fin 1))) := by
  unfold k0_pay10 Cert.Spec.kLpY
  refine (subf_apply _ _ _).trans ?_
  refine congrArg₂ (· - ·) ?_ (pay7_apply x0 r)
  refine (keepSum_apply _ r).trans (Finset.sum_congr rfl fun v _ => ?_)
  refine (select_apply _ _ _ _).trans ?_
  have hi : iota .tc S128x10000 32 [1] iota_S128x10000_d1_w32 (ix2 r v) = BitVec.ofNat 32 v.val :=
    iota_single_apply .tc S128x10000 32 1 iota_S128x10000_d1_w32 (ix2 r v)
  have hb : broadcastTo S128x10000 (shapeCast S128x1 x2 shapeCasts_S1x128x1_S128x1) broadcasts_S128x1_S128x10000 (ix2 r v)
      = x2 (ix3 (0 : Fin 1) r (0 : Fin 1)) := (bcast_apply _ r v).trans (castLabel_apply x2 r)
  have hc : cmpi .eq (iota .tc S128x10000 32 [1] iota_S128x10000_d1_w32)
      (broadcastTo S128x10000 (shapeCast S128x1 x2 shapeCasts_S1x128x1_S128x1) broadcasts_S128x1_S128x10000) (ix2 r v)
      = IntOp.cmpi .eq (BitVec.ofNat 32 v.val) (x2 (ix3 (0 : Fin 1) r (0 : Fin 1))) :=
    congrArg₂ (IntOp.cmpi .eq) hi hb
  rw [hc, pay6_apply]
  exact congrArg (Scalar.select _ _) Ideal.ofBits_zero_f32

/-- Row r's mask: 1 where the row's position in the sequence is below the length, else 0. -/
theorem pay1_apply (t len : BitVec 32) (r : Fin 128) :
    k0_pay1 (F := Ideal) t len (ix2 r (0 : Fin 1)) = Cert.Spec.kMask (Cert.Spec.tilePos r t) len := by
  unfold k0_pay1 Cert.Spec.kMask Cert.Spec.tilePos
  have hi : iota .tc S128x1 32 [0] iota_S128x1_d0_w32 (ix2 r (0 : Fin 1)) = BitVec.ofNat 32 r.val :=
    iota_single_apply .tc S128x1 32 0 iota_S128x1_d0_w32 (ix2 r (0 : Fin 1))
  show ((((IntOp.cmpi .slt (iota .tc S128x1 32 [0] iota_S128x1_d0_w32 (ix2 r (0 : Fin 1)) + t * 128#32) len).setWidth 32).toInt : ℝ) : EReal) = _
  rw [hi]

/-- The sum down the 128 rows of a column, read at the one entry that is left. -/
theorem colSum_apply (w : FVec Ideal S128x1 .f32) :
    multiReduction (F := Ideal) .add [0] S1 w 0x00000000#32 reduces_S128x1_S1 (.inl rfl) rfl (ix1 (0 : Fin 1))
      = ∑ k : Fin 128, w (ix2 k (0 : Fin 1)) := by
  refine (Ideal.multiReduction_add_single _ _ _ _ _ _).trans ?_
  exact Finset.sum_congr rfl fun k _ => congrArg w (lift_col k)

/-- In a shape with one entry, every index sits at row-major position 0. -/
theorem rowMajor_unit {s : Shape} (h : s.numel = 1) (i : s.Idx) : (s.rowMajor i).val = 0 :=
  Nat.lt_one_iff.mp (lt_of_lt_of_eq (s.rowMajor i).isLt h)

/-- A one-entry vector viewed with two more unit axes: its one entry. -/
theorem castOne_apply {α : Type} (w : S1.Idx → α) (i : S1x1x1.Idx) :
    shapeCast S1x1x1 (shapeCast S1x1 w shapeCasts_S1_S1x1) shapeCasts_S1x1_S1x1x1 i = w (ix1 (0 : Fin 1)) := by
  have h3 : S1x1x1.numel = 1 := by decide
  have h2 : S1x1.numel = 1 := by decide
  have h1 : S1.numel = 1 := by decide
  refine (shapeCast_apply _ _ i (ix2 (0 : Fin 1) (0 : Fin 1)) ?_).trans (shapeCast_apply _ _ _ _ ?_)
  · exact (rowMajor_unit h2 _).trans (rowMajor_unit h3 i).symm
  · exact (rowMajor_unit h1 _).trans (rowMajor_unit h2 _).symm

/-- The accumulator's update in general: what it held, plus the masked column summed down its rows. -/
theorem accum_apply (w m : FVec Ideal S128x1 .f32) (prev : Vec Ideal S1x1x1 .f32) (i : S1x1x1.Idx) :
    addf (shapeCast S1x1x1 prev shapeCasts_S1x1x1_S1x1x1)
        (shapeCast S1x1x1 (shapeCast S1x1
          (multiReduction (F := Ideal) .add [0] S1 (mulf w m) 0x00000000#32 reduces_S128x1_S1 (.inl rfl) rfl)
          shapeCasts_S1_S1x1) shapeCasts_S1x1_S1x1x1) i
      = prev i + ∑ k : Fin 128, w (ix2 k (0 : Fin 1)) * m (ix2 k (0 : Fin 1)) := by
  refine (addf_apply _ _ _).trans ?_
  refine congrArg₂ (· + ·) (congrFun (shapeCast_self prev _) i) ?_
  refine (castOne_apply _ i).trans ((colSum_apply _).trans ?_)
  exact Finset.sum_congr rfl fun k _ => mulf_apply _ _ _

/-- The soft accumulator's new value: what it held plus the tile's masked soft sum.
    `x0`, `x1` are the tile's logits and soft labels, `t` the tile's number, `len` the batch element's length. -/
theorem pay2_apply (t : BitVec 32) (x0 x1 : Vec Ideal S1x128x10000 .f32) (len : BitVec 32) (prev : Vec Ideal S1x1x1 .f32)
    (i : S1x1x1.Idx) :
    k0_pay2 (F := Ideal) t (k0_pay8 (F := Ideal) x0 x1) len prev i
      = prev i + Cert.Spec.kTileSoft (fun r v => x0 (ix3 (0 : Fin 1) r v)) (fun r v => x1 (ix3 (0 : Fin 1) r v)) t len := by
  unfold k0_pay2 Cert.Spec.kTileSoft
  refine (accum_apply _ _ prev i).trans ?_
  refine congrArg (prev i + ·) (Finset.sum_congr rfl fun r _ => ?_)
  exact congrArg₂ (· * ·) (pay8_apply x0 x1 r) (pay1_apply t len r)

/-- The label-smoothed accumulator's new value: what it held plus the tile's masked label-smoothed sum.
    `x2` are the tile's labels. -/
theorem pay3_apply (t : BitVec 32) (x0 : Vec Ideal S1x128x10000 .f32) (x2 : Vec Ideal S1x128x1 .i32) (len : BitVec 32)
    (prev : Vec Ideal S1x1x1 .f32) (i : S1x1x1.Idx) :
    k0_pay3 (F := Ideal) t (k0_pay9 (F := Ideal) x0) (k0_pay10 (F := Ideal) x0 x2) len prev i
      = prev i + Cert.Spec.kTileHard (fun r v => x0 (ix3 (0 : Fin 1) r v)) (fun r => x2 (ix3 (0 : Fin 1) r (0 : Fin 1))) t len := by
  unfold k0_pay3 Cert.Spec.kTileHard Cert.Spec.kHardTok Cert.Spec.cKeep Cert.Spec.cSmooth
  refine (accum_apply _ _ prev i).trans ?_
  refine congrArg (prev i + ·) (Finset.sum_congr rfl fun r _ => ?_)
  refine congrArg₂ (· * ·) ?_ (pay1_apply t len r)
  refine (addf_apply _ _ _).trans ?_
  refine congrArg₂ (· + ·) ?_ ?_
  · refine (mulf_apply _ _ _).trans ?_
    exact congrArg₂ (· * ·) rfl (pay10_apply x0 x2 r)
  · refine (mulf_apply _ _ _).trans ?_
    refine congrArg₂ (· * ·) rfl ?_
    refine (subf_apply _ _ _).trans ?_
    exact congrArg₂ (· - ·) (pay9_apply x0 r) (pay10_apply x0 x2 r)

/-- The first tile's reset of the soft accumulator. -/
theorem pay4_apply (i : S1x1x1.Idx) : k0_pay4 (F := Ideal) i = 0 := by
  unfold k0_pay4
  exact Ideal.ofBits_zero_f32

/-- The first tile's reset of the label-smoothed accumulator. -/
theorem pay5_apply (i : S1x1x1.Idx) : k0_pay5 (F := Ideal) i = 0 := by
  unfold k0_pay5
  exact Ideal.ofBits_zero_f32

end Cert.KernelIdeal.Payload

end
-- ==== Proof.KernelValue.lean ====
/-
  The two accumulators, point by point, and the arrays they are written back to.

  Grid point t = 2·b + k is tile k of batch element b. After the first tile (t even) each accumulator holds zero plus
  that tile's masked sum; after the second (t odd) it holds that plus the second tile's masked sum, and only then is
  it written back, to entry b of its [16,1,1] array. So each array ends holding, at b, the kernel's per-batch sum.
-/
import proofs.«424559_j75548474737114_3_alg».proof.Proof.KernelPieces
import proofs.«424559_j75548474737114_3_alg».proof.Proof.KernelPayload
import proofs.«424559_j75548474737114_3_alg».proof.Proof.Spec

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The tile of logits the body is handed at point t. -/
abbrev xblk (hO : Ok m) (c : Dev nD) (t : Fin (cfgM m hO).N) : Vec Ideal S1x128x10000 .f32 := iblk m hO c 0 t
/-- The tile of soft labels at point t. -/
abbrev sblk (hO : Ok m) (c : Dev nD) (t : Fin (cfgM m hO).N) : Vec Ideal S1x128x10000 .f32 := iblk m hO c 1 t
/-- The tile of labels at point t. -/
abbrev yblk (hO : Ok m) (c : Dev nD) (t : Fin (cfgM m hO).N) : Vec Ideal S1x128x1 .i32 := iblk m hO c 2 t

/-- The tile number of point t, as the body's word. -/
def tileW (hO : Ok m) (t : Fin (cfgM m hO).N) : BitVec 32 := BitVec.ofNat 32 ((grid0.coords t) 1).val
/-- The sequence length the body loads at point t. -/
def lenAt (hO : Ok m) (c : Dev nD) (t : Fin (cfgM m hO).N) : BitVec 32 := lenW (F := Ideal) c (grid0.coords t) (tbl m 0)

/-- The masked soft sum of the tile at point t. -/
def tileSoft (hO : Ok m) (c : Dev nD) (t : Fin (cfgM m hO).N) : EReal :=
  Cert.Spec.kTileSoft (fun r v => xblk m hO c t (ix3 (0 : Fin 1) r v)) (fun r v => sblk m hO c t (ix3 (0 : Fin 1) r v))
    (tileW m hO t) (lenAt m hO c t)
/-- The masked label-smoothed sum of the tile at point t. -/
def tileHard (hO : Ok m) (c : Dev nD) (t : Fin (cfgM m hO).N) : EReal :=
  Cert.Spec.kTileHard (fun r v => xblk m hO c t (ix3 (0 : Fin 1) r v)) (fun r => yblk m hO c t (ix3 (0 : Fin 1) r (0 : Fin 1)))
    (tileW m hO t) (lenAt m hO c t)

/-- After a first tile: zero plus the tile's sums. -/
theorem outs_even (hO : Ok m) (c : Dev nD) (t : Fin (cfgM m hO).N) (h0 : t.val % 2 = 0) :
    outsAt0 m hO c t.val t.isLt = ((fun _ => 0 + tileSoft m hO c t), (fun _ => 0 + tileHard m hO c t)) := by
  rw [outsAt0_A m hO c t h0]
  refine Prod.ext ?_ ?_
  · dsimp only
    refine (out0_A_3_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) ((hcond0_0 t).mpr h0)
      (xblk m hO c t) (sblk m hO c t) (yblk m hO c t) (tbl m 0)).trans ?_
    funext i
    rw [Cert.KernelIdeal.Payload.pay2_apply, Cert.KernelIdeal.Payload.pay4_apply]
    rfl
  · dsimp only
    refine (out0_A_4_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) ((hcond0_0 t).mpr h0)
      (xblk m hO c t) (sblk m hO c t) (yblk m hO c t) (tbl m 0)).trans ?_
    funext i
    rw [Cert.KernelIdeal.Payload.pay3_apply, Cert.KernelIdeal.Payload.pay5_apply]
    rfl

/-- The point before an odd point: the first tile of the same batch element. -/
def prevPt (hO : Ok m) (t : Fin (cfgM m hO).N) : Fin (cfgM m hO).N := ⟨t.val - 1, Nat.lt_of_le_of_lt (Nat.sub_le _ _) t.isLt⟩

/-- After a second tile: what the first tile left, plus this tile's sums. -/
theorem outs_odd (hO : Ok m) (c : Dev nD) (t : Fin (cfgM m hO).N) (h1 : ¬t.val % 2 = 0) :
    outsAt0 m hO c t.val t.isLt
      = ((fun _ => (0 + tileSoft m hO c (prevPt m hO t)) + tileSoft m hO c t),
         (fun _ => (0 + tileHard m hO c (prevPt m hO t)) + tileHard m hO c t)) := by
  have hprev : outsAt0 m hO c (t.val - 1) (Nat.lt_of_le_of_lt (Nat.sub_le _ _) t.isLt)
      = ((fun _ => 0 + tileSoft m hO c (prevPt m hO t)), (fun _ => 0 + tileHard m hO c (prevPt m hO t))) :=
    outs_even m hO c (prevPt m hO t) (by show (t.val - 1) % 2 = 0; omega)
  rw [outsAt0_B m hO c t h1]
  refine Prod.ext ?_ ?_
  · dsimp only
    refine (out0_B_3_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (fun h => h1 ((hcond0_0 t).mp h))
      (xblk m hO c t) (sblk m hO c t) (yblk m hO c t) (tbl m 0) _ _).trans ?_
    funext i
    rw [Cert.KernelIdeal.Payload.pay2_apply, hprev]
    rfl
  · dsimp only
    refine (out0_B_4_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (fun h => h1 ((hcond0_0 t).mp h))
      (xblk m hO c t) (sblk m hO c t) (yblk m hO c t) (tbl m 0) _ _).trans ?_
    funext i
    rw [Cert.KernelIdeal.Payload.pay3_apply, hprev]
    rfl

/-! ## The blocks, read off the argument arrays -/

/-- Where point t's blocks sit: batch element t / 2, tile t % 2 (decided over the 32 points). -/
theorem idx_facts : ∀ t : Fin grid0.N,
    (grid0.coords t 0).val = t.val / 2 ∧ (grid0.coords t 1).val = t.val % 2
    ∧ cc0_transform_0 (grid0.coords t) 0 = t.val / 2 ∧ cc0_transform_0 (grid0.coords t) 1 = t.val % 2 ∧ cc0_transform_0 (grid0.coords t) 2 = 0
    ∧ cc0_transform_1 (grid0.coords t) 0 = t.val / 2 ∧ cc0_transform_1 (grid0.coords t) 1 = t.val % 2 ∧ cc0_transform_1 (grid0.coords t) 2 = 0
    ∧ cc0_transform_2 (grid0.coords t) 0 = t.val / 2 ∧ cc0_transform_2 (grid0.coords t) 1 = t.val % 2 ∧ cc0_transform_2 (grid0.coords t) 2 = 0
    ∧ cc0_transform_3 (grid0.coords t) 0 = t.val / 2 ∧ cc0_transform_3 (grid0.coords t) 1 = 0 ∧ cc0_transform_3 (grid0.coords t) 2 = 0
    ∧ cc0_transform_4 (grid0.coords t) 0 = t.val / 2 ∧ cc0_transform_4 (grid0.coords t) 1 = 0 ∧ cc0_transform_4 (grid0.coords t) 2 = 0 := by
  decide +kernel

/-- The argument arrays of core c, at their literal types. -/
abbrev argX (c : Dev nD) : Cert.Spec.S16x256x10000.Idx → EReal := m ((c : Thread nD τ).loc main_arg0)
abbrev argY (c : Dev nD) : Cert.Spec.S16x256.Idx → BitVec 32 := m ((c : Thread nD τ).loc main_arg1)
abbrev argS (c : Dev nD) : Cert.Spec.S16x256x10000.Idx → EReal := m ((c : Thread nD τ).loc main_arg2)
abbrev argL (c : Dev nD) : Cert.Spec.S16.Idx → BitVec 32 := m ((c : Thread nD τ).loc main_arg3)

/-- The batch element and the tile of point t. -/
def bOf (t : Fin grid0.N) : Fin 16 := ⟨t.val / 2, by have := t.isLt; have : grid0.N = 32 := N_0; omega⟩
def kOf (t : Fin grid0.N) : Fin 2 := ⟨t.val % 2, by omega⟩

/-- Row r of point t's logits tile is token 128·(t % 2) + r of batch element t / 2. -/
theorem xblk_apply (hO : Ok m) (c : Dev nD) (t : Fin (cfgM m hO).N) (r : Fin 128) (v : Fin 10000) :
    xblk m hO c t (ix3 (0 : Fin 1) r v) = Cert.Spec.tileRows (argX m c) (bOf t) (kOf t) r v := by
  show V m c main_arg0 ((((cfgM m hO).win 0).blk t).view.emb (ix3 (0 : Fin 1) r v)) = _
  rw [V_main_arg0]
  obtain ⟨-, -, e0, e1, e2, -⟩ := idx_facts t
  show m ((c : Thread nD τ).loc main_arg0) _ = m ((c : Thread nD τ).loc main_arg0) _
  refine congrArg _ (funext fun a => Fin.ext ?_)
  match a with
  | ⟨0, _⟩ => show cc0_transform_0 (grid0.coords t) 0 * 1 + 1 * 0 = t.val / 2; omega
  | ⟨1, _⟩ => show cc0_transform_0 (grid0.coords t) 1 * 128 + 1 * r.val = 128 * (t.val % 2) + r.val; omega
  | ⟨2, _⟩ => show cc0_transform_0 (grid0.coords t) 2 * 10000 + 1 * v.val = v.val; omega

/-- The same for the soft labels. -/
theorem sblk_apply (hO : Ok m) (c : Dev nD) (t : Fin (cfgM m hO).N) (r : Fin 128) (v : Fin 10000) :
    sblk m hO c t (ix3 (0 : Fin 1) r v) = Cert.Spec.tileRows (argS m c) (bOf t) (kOf t) r v := by
  show V m c main_arg2 ((((cfgM m hO).win 1).blk t).view.emb (ix3 (0 : Fin 1) r v)) = _
  rw [V_main_arg2]
  obtain ⟨-, -, -, -, -, e0, e1, e2, -⟩ := idx_facts t
  show m ((c : Thread nD τ).loc main_arg2) _ = m ((c : Thread nD τ).loc main_arg2) _
  refine congrArg _ (funext fun a => Fin.ext ?_)
  match a with
  | ⟨0, _⟩ => show cc0_transform_1 (grid0.coords t) 0 * 1 + 1 * 0 = t.val / 2; omega
  | ⟨1, _⟩ => show cc0_transform_1 (grid0.coords t) 1 * 128 + 1 * r.val = 128 * (t.val % 2) + r.val; omega
  | ⟨2, _⟩ => show cc0_transform_1 (grid0.coords t) 2 * 10000 + 1 * v.val = v.val; omega

/-- The labels' array as the region finds it: the labels with a trailing unit axis. -/
theorem V_main_v0 (c : Dev nD) :
    (V m c main_v0 : S16x256x1.Idx → BitVec 32)
      = broadcastInDim S16x256x1 ![0, 1] bcast_S16x256_S16x256x1_0_1 (m ((c : Thread nD τ).loc main_arg1)) := by
  show StableHlo.after hostOps0 (fun b => m (c, b)) (Proc.devRef .tc main_v0) = _
  after_results

/-- Row r of point t's label tile is the label of token 128·(t % 2) + r of batch element t / 2. -/
theorem yblk_apply (hO : Ok m) (c : Dev nD) (t : Fin (cfgM m hO).N) (r : Fin 128) :
    yblk m hO c t (ix3 (0 : Fin 1) r (0 : Fin 1)) = Cert.Spec.tileLabels (argY m c) (bOf t) (kOf t) r := by
  show V m c main_v0 ((((cfgM m hO).win 2).blk t).view.emb (ix3 (0 : Fin 1) r (0 : Fin 1))) = _
  rw [V_main_v0]
  obtain ⟨-, -, -, -, -, -, -, -, e0, e1, e2, -⟩ := idx_facts t
  refine (broadcastInDim_apply _ _ _ _ (ix2 (bOf t) ⟨128 * (t.val % 2) + r.val, by omega⟩) (fun a => ?_)).trans rfl
  match a with
  | ⟨0, _⟩ => show t.val / 2 = cc0_transform_2 (grid0.coords t) 0 * 1 + 1 * 0; omega
  | ⟨1, _⟩ => show 128 * (t.val % 2) + r.val = cc0_transform_2 (grid0.coords t) 1 * 128 + 1 * r.val; omega

/-- The tile number the body sees at point t. -/
theorem tileW_eq (hO : Ok m) (t : Fin (cfgM m hO).N) : tileW m hO t = BitVec.ofNat 32 (t.val % 2) := by
  unfold tileW
  rw [(idx_facts t).2.1]

/-- The length the body loads at point t is the length of batch element t / 2. -/
theorem lenAt_eq (hO : Ok m) (c : Dev nD) (t : Fin (cfgM m hO).N) : lenAt m hO c t = argL m c (ix1 (bOf t)) := by
  obtain rfl : c = 0 := Subsingleton.elim _ _
  show V m 0 main_arg3 _ = _
  rw [V_main_arg3]
  show m (((0 : Dev nD) : Thread nD τ).loc main_arg3) _ = m (((0 : Dev nD) : Thread nD τ).loc main_arg3) _
  refine congrArg _ (funext fun a => Fin.ext ?_)
  have e0 := (idx_facts t).1
  have hN : t.val < 32 := by have := t.isLt; have : grid0.N = 32 := N_0; omega
  match a with
  | ⟨0, _⟩ =>
    show (BitVec.ofNat 32 (grid0.coords t 0).val).toNat + 0 = t.val / 2
    rw [e0, BitVec.toNat_ofNat]
    omega

/-! ## The tile sums over the argument arrays -/

theorem tileSoft_eq (hO : Ok m) (c : Dev nD) (t : Fin (cfgM m hO).N) :
    tileSoft m hO c t
      = Cert.Spec.kTileSoft (Cert.Spec.tileRows (argX m c) (bOf t) (kOf t)) (Cert.Spec.tileRows (argS m c) (bOf t) (kOf t))
          (BitVec.ofNat 32 (t.val % 2)) (argL m c (ix1 (bOf t))) := by
  unfold tileSoft
  rw [tileW_eq, lenAt_eq,
    show (fun r v => xblk m hO c t (ix3 (0 : Fin 1) r v)) = Cert.Spec.tileRows (argX m c) (bOf t) (kOf t) from
      funext fun r => funext fun v => xblk_apply m hO c t r v,
    show (fun r v => sblk m hO c t (ix3 (0 : Fin 1) r v)) = Cert.Spec.tileRows (argS m c) (bOf t) (kOf t) from
      funext fun r => funext fun v => sblk_apply m hO c t r v]

theorem tileHard_eq (hO : Ok m) (c : Dev nD) (t : Fin (cfgM m hO).N) :
    tileHard m hO c t
      = Cert.Spec.kTileHard (Cert.Spec.tileRows (argX m c) (bOf t) (kOf t)) (Cert.Spec.tileLabels (argY m c) (bOf t) (kOf t))
          (BitVec.ofNat 32 (t.val % 2)) (argL m c (ix1 (bOf t))) := by
  unfold tileHard
  rw [tileW_eq, lenAt_eq,
    show (fun r v => xblk m hO c t (ix3 (0 : Fin 1) r v)) = Cert.Spec.tileRows (argX m c) (bOf t) (kOf t) from
      funext fun r => funext fun v => xblk_apply m hO c t r v,
    show (fun r => yblk m hO c t (ix3 (0 : Fin 1) r (0 : Fin 1))) = Cert.Spec.tileLabels (argY m c) (bOf t) (kOf t) from
      funext fun r => yblk_apply m hO c t r]

/-- After the second tile the soft accumulator holds the kernel's per-batch soft sum. -/
theorem soft_at_odd (hO : Ok m) (c : Dev nD) (t : Fin (cfgM m hO).N) (h1 : t.val % 2 = 1) :
    (0 + tileSoft m hO c (prevPt m hO t)) + tileSoft m hO c t
      = Cert.Spec.kSoftB (argX m c) (argS m c) (argL m c) (bOf t) := by
  have hb : bOf (prevPt m hO t) = bOf t := Fin.ext (by show (t.val - 1) / 2 = t.val / 2; omega)
  have hk0 : kOf (prevPt m hO t) = (0 : Fin 2) := Fin.ext (by show (t.val - 1) % 2 = 0; omega)
  have hk1 : kOf t = (1 : Fin 2) := Fin.ext (by show t.val % 2 = 1; exact h1)
  have hp : (prevPt m hO t).val % 2 = 0 := by show (t.val - 1) % 2 = 0; omega
  rw [tileSoft_eq, tileSoft_eq, hb, hk0, hk1, hp, h1]
  rfl

/-- After the second tile the label-smoothed accumulator holds the kernel's per-batch label-smoothed sum. -/
theorem hard_at_odd (hO : Ok m) (c : Dev nD) (t : Fin (cfgM m hO).N) (h1 : t.val % 2 = 1) :
    (0 + tileHard m hO c (prevPt m hO t)) + tileHard m hO c t
      = Cert.Spec.kHardB (argX m c) (argY m c) (argL m c) (bOf t) := by
  have hb : bOf (prevPt m hO t) = bOf t := Fin.ext (by show (t.val - 1) / 2 = t.val / 2; omega)
  have hk0 : kOf (prevPt m hO t) = (0 : Fin 2) := Fin.ext (by show (t.val - 1) % 2 = 0; omega)
  have hk1 : kOf t = (1 : Fin 2) := Fin.ext (by show t.val % 2 = 1; exact h1)
  have hp : (prevPt m hO t).val % 2 = 0 := by show (t.val - 1) % 2 = 0; omega
  rw [tileHard_eq, tileHard_eq, hb, hk0, hk1, hp, h1]
  rfl

/-! ## The two output arrays after the region -/

/-- The soft output array's final contents: entry b is the kernel's per-batch soft sum. -/
def softArr (c : Dev nD) : Buf (Elt Ideal) ((c : Thread nD τ).loc main_v1_0) :=
  fun i => Cert.Spec.kSoftB (argX m c) (argS m c) (argL m c) ⟨(i 0).val, (i 0).isLt⟩
/-- The label-smoothed output array's final contents. -/
def hardArr (c : Dev nD) : Buf (Elt Ideal) ((c : Thread nD τ).loc main_v1_1) :=
  fun i => Cert.Spec.kHardB (argX m c) (argY m c) (argL m c) ⟨(i 0).val, (i 0).isLt⟩

/-- What a flushing point writes back to the soft array is its block of `softArr`. -/
theorem flushed3_eq (hO : Ok m) (c : Dev nD) (t : Fin (cfgM m hO).N) (hf : ((cfgM m hO).win 3).flush t = true) :
    (dats m hO 0 c).flushed 3 t = (((cfgM m hO).win 3).blk t).view.read (Elt Ideal) (softArr m c) := by
  have h1 : t.val % 2 = 1 := (flush0_3 (adm m hO) t).mp hf
  show ((cfgM m hO).win 3).cut (grid0.coords t) ((dats m hO 0 c).after 3 t) = _
  rw [after0_3, outs_odd m hO c t (by omega)]
  refine funext fun (y : S1x1x1.Idx) => ?_
  show (0 + tileSoft m hO c (prevPt m hO t)) + tileSoft m hO c t = softArr m c ((((cfgM m hO).win 3).blk t).view.emb y)
  rw [soft_at_odd m hO c t h1]
  unfold softArr
  refine congrArg _ (Fin.ext ?_)
  obtain ⟨-, -, -, -, -, -, -, -, -, -, -, e0, -⟩ := idx_facts t
  have hy : (y 0).val = 0 := by have h : (y 0).val < 1 := (y 0).isLt; omega
  show t.val / 2 = cc0_transform_3 (grid0.coords t) 0 * 1 + 1 * (y 0).val
  omega

theorem flushed4_eq (hO : Ok m) (c : Dev nD) (t : Fin (cfgM m hO).N) (hf : ((cfgM m hO).win 4).flush t = true) :
    (dats m hO 0 c).flushed 4 t = (((cfgM m hO).win 4).blk t).view.read (Elt Ideal) (hardArr m c) := by
  have h1 : t.val % 2 = 1 := (flush0_4 (adm m hO) t).mp hf
  show ((cfgM m hO).win 4).cut (grid0.coords t) ((dats m hO 0 c).after 4 t) = _
  rw [after0_4, outs_odd m hO c t (by omega)]
  refine funext fun (y : S1x1x1.Idx) => ?_
  show (0 + tileHard m hO c (prevPt m hO t)) + tileHard m hO c t = hardArr m c ((((cfgM m hO).win 4).blk t).view.emb y)
  rw [hard_at_odd m hO c t h1]
  unfold hardArr
  refine congrArg _ (Fin.ext ?_)
  obtain ⟨-, -, -, -, -, -, -, -, -, -, -, -, -, -, e0, -⟩ := idx_facts t
  have hy : (y 0).val = 0 := by have h : (y 0).val < 1 := (y 0).isLt; omega
  show t.val / 2 = cc0_transform_4 (grid0.coords t) 0 * 1 + 1 * (y 0).val
  omega

/-- Every entry of the array is in the block of the second tile of its batch element, which writes back. -/
theorem cover3 (hO : Ok m) (c : Dev nD) (i : S16x1x1.Idx) :
    ∃ t : Fin (cfgM m hO).N, ((cfgM m hO).win 3).flush t = true ∧ i ∈ (((cfgM m hO).win 3).blk t).view.set := by
  have hi0 : (i 0).val < 16 := (i 0).isLt
  have hi1 : (i 1).val < 1 := (i 1).isLt
  have hi2 : (i 2).val < 1 := (i 2).isLt
  obtain ⟨t, ht⟩ : ∃ t : Fin (cfgM m hO).N, t.val = 2 * (i 0).val + 1 :=
    ⟨⟨2 * (i 0).val + 1, by show _ < grid0.N; rw [N_0]; omega⟩, rfl⟩
  refine ⟨t, (flush0_3 (adm m hO) t).mpr (by omega), ?_⟩
  obtain ⟨-, -, -, -, -, -, -, -, -, -, -, e0, e1, e2, -⟩ := idx_facts t
  have hemb : i = (((cfgM m hO).win 3).blk t).view.emb (ix3 (0 : Fin 1) (0 : Fin 1) (0 : Fin 1)) := by
    funext a; apply Fin.ext
    match a with
    | ⟨0, _⟩ => show (i 0).val = cc0_transform_3 (grid0.coords t) 0 * 1 + 1 * 0; omega
    | ⟨1, _⟩ => show (i 1).val = cc0_transform_3 (grid0.coords t) 1 * 1 + 1 * 0; omega
    | ⟨2, _⟩ => show (i 2).val = cc0_transform_3 (grid0.coords t) 2 * 1 + 1 * 0; omega
  rw [hemb]
  exact View.emb_mem_set _ _

/-- Every entry of the array is in the block of the second tile of its batch element, which writes back. -/
theorem cover4 (hO : Ok m) (c : Dev nD) (i : S16x1x1.Idx) :
    ∃ t : Fin (cfgM m hO).N, ((cfgM m hO).win 4).flush t = true ∧ i ∈ (((cfgM m hO).win 4).blk t).view.set := by
  have hi0 : (i 0).val < 16 := (i 0).isLt
  have hi1 : (i 1).val < 1 := (i 1).isLt
  have hi2 : (i 2).val < 1 := (i 2).isLt
  obtain ⟨t, ht⟩ : ∃ t : Fin (cfgM m hO).N, t.val = 2 * (i 0).val + 1 :=
    ⟨⟨2 * (i 0).val + 1, by show _ < grid0.N; rw [N_0]; omega⟩, rfl⟩
  refine ⟨t, (flush0_4 (adm m hO) t).mpr (by omega), ?_⟩
  obtain ⟨-, -, -, -, -, -, -, -, -, -, -, -, -, -, e0, e1, e2⟩ := idx_facts t
  have hemb : i = (((cfgM m hO).win 4).blk t).view.emb (ix3 (0 : Fin 1) (0 : Fin 1) (0 : Fin 1)) := by
    funext a; apply Fin.ext
    match a with
    | ⟨0, _⟩ => show (i 0).val = cc0_transform_4 (grid0.coords t) 0 * 1 + 1 * 0; omega
    | ⟨1, _⟩ => show (i 1).val = cc0_transform_4 (grid0.coords t) 1 * 1 + 1 * 0; omega
    | ⟨2, _⟩ => show (i 2).val = cc0_transform_4 (grid0.coords t) 2 * 1 + 1 * 0; omega
  rw [hemb]
  exact View.emb_mem_set _ _

/-- The soft output array after the region. -/
theorem final3 (hO : Ok m) (c : Dev nD) : (dats m hO 0 c).arrAt 3 (cfgM m hO).N = softArr m c :=
  (dats m hO 0 c).arrAt_eq_of_cover 3 (softArr m c) (flushed3_eq m hO c) (cover3 m hO c)

/-- The label-smoothed output array after the region. -/
theorem final4 (hO : Ok m) (c : Dev nD) : (dats m hO 0 c).arrAt 4 (cfgM m hO).N = hardArr m c :=
  (dats m hO 0 c).arrAt_eq_of_cover 4 (hardArr m c) (flushed4_eq m hO c) (cover4 m hO c)

/-! ## After the region: the closing arithmetic on the two arrays -/

/-- The soft array as a vector over the batch. -/
def softVec (c : Dev nD) : FVec Ideal S16 .f32 := shapeCast S16 (softArr m c) shapeCasts_S16x1x1_S16
/-- The label-smoothed array as a vector over the batch. -/
def hardVec (c : Dev nD) : FVec Ideal S16 .f32 := shapeCast S16 (hardArr m c) shapeCasts_S16x1x1_S16

theorem softVec_apply (c : Dev nD) (b : Fin 16) :
    softVec m c (ix1 b) = Cert.Spec.kSoftB (argX m c) (argS m c) (argL m c) b := by
  unfold softVec
  refine (shapeCast_apply _ _ (ix1 b) (ix3 b (0 : Fin 1) (0 : Fin 1)) ?_).trans rfl
  rw [Shape.rowMajor_val_three, Shape.rowMajor_val_one]
  show (b.val * 1 + 0) * 1 + 0 = b.val
  omega

theorem hardVec_apply (c : Dev nD) (b : Fin 16) :
    hardVec m c (ix1 b) = Cert.Spec.kHardB (argX m c) (argY m c) (argL m c) b := by
  unfold hardVec
  refine (shapeCast_apply _ _ (ix1 b) (ix3 b (0 : Fin 1) (0 : Fin 1)) ?_).trans rfl
  rw [Shape.rowMajor_val_three, Shape.rowMajor_val_one]
  show (b.val * 1 + 0) * 1 + 0 = b.val
  omega

/-- The second result: minus the mean of the soft sums. -/
theorem tail_v16 (hO : Ok m) (c : Dev nD) :
    Pipeline.afterTail pcfgs (fun _ => adm m hO) (dats m hO) 0 (V0 m) [hostOps1] c main_v16
      = Cert.Spec.negMean (F := Ideal) reducesTo_S16_S_d0 h_S_ (softVec m c) := by
  unfold Pipeline.afterTail
  simp only [List.flatten_cons, List.flatten_nil, List.append_nil]
  after_results
  rw [(show Pipeline.withArrays (Pipeline.pin pcfgs (fun _ => adm m hO) 0).spec c (V0 m c)
        (fun w => (dats m hO 0 c).arrAt w (Pipeline.pin pcfgs (fun _ => adm m hO) 0).N) (Proc.devRef .tc main_v1_0)
        = softArr m c from (Pipeline.withArrays_arr spec0 (launch0 (F := Ideal)).win.arr_inj c _ _ 3).trans (final3 m hO c))]
  rfl

/-- The third result: minus the mean of the label-smoothed sums. -/
theorem tail_v17 (hO : Ok m) (c : Dev nD) :
    Pipeline.afterTail pcfgs (fun _ => adm m hO) (dats m hO) 0 (V0 m) [hostOps1] c main_v17
      = Cert.Spec.negMean (F := Ideal) reducesTo_S16_S_d0 h_S_ (hardVec m c) := by
  unfold Pipeline.afterTail
  simp only [List.flatten_cons, List.flatten_nil, List.append_nil]
  after_results
  rw [(show Pipeline.withArrays (Pipeline.pin pcfgs (fun _ => adm m hO) 0).spec c (V0 m c)
        (fun w => (dats m hO 0 c).arrAt w (Pipeline.pin pcfgs (fun _ => adm m hO) 0).N) (Proc.devRef .tc main_v1_1)
        = hardArr m c from (Pipeline.withArrays_arr spec0 (launch0 (F := Ideal)).win.arr_inj c _ _ 4).trans (final4 m hO c))]
  rfl

/-- The first result: minus the mean of the blend of the two. -/
theorem tail_v15 (hO : Ok m) (c : Dev nD) :
    Pipeline.afterTail pcfgs (fun _ => adm m hO) (dats m hO) 0 (V0 m) [hostOps1] c main_v15
      = Cert.Spec.negMean (F := Ideal) reducesTo_S16_S_d0 h_S_ (Cert.Spec.blend (F := Ideal) bcast_S_S16 (softVec m c) (hardVec m c)) := by
  unfold Pipeline.afterTail
  simp only [List.flatten_cons, List.flatten_nil, List.append_nil]
  after_results
  rw [(show Pipeline.withArrays (Pipeline.pin pcfgs (fun _ => adm m hO) 0).spec c (V0 m c)
        (fun w => (dats m hO 0 c).arrAt w (Pipeline.pin pcfgs (fun _ => adm m hO) 0).N) (Proc.devRef .tc main_v1_0)
        = softArr m c from (Pipeline.withArrays_arr spec0 (launch0 (F := Ideal)).win.arr_inj c _ _ 3).trans (final3 m hO c)),
    (show Pipeline.withArrays (Pipeline.pin pcfgs (fun _ => adm m hO) 0).spec c (V0 m c)
        (fun w => (dats m hO 0 c).arrAt w (Pipeline.pin pcfgs (fun _ => adm m hO) 0).N) (Proc.devRef .tc main_v1_1)
        = hardArr m c from (Pipeline.withArrays_arr spec0 (launch0 (F := Ideal)).win.arr_inj c _ _ 4).trans (final4 m hO c))]
  rfl

/-! ## The kernel's run, with its three results named -/

/-- Every weakly fair execution of the kernel's program ends with the three losses at the closing arithmetic of the two
    per-batch vectors, and the arguments unchanged. -/
theorem run_value (ρ : Dev nD → PrngReg) (hO : Ok m) :
    θ_run defs (onTc (τ := τ) (main (F := Ideal))) ⟨m, fun _ => 0, ρ⟩ (fun r => ∀ c : Dev nD,
      r.2.mem ((c.tc : Thread nD τ).loc main_v15)
        = Cert.Spec.negMean (F := Ideal) reducesTo_S16_S_d0 h_S_ (Cert.Spec.blend (F := Ideal) bcast_S_S16 (softVec m c) (hardVec m c))
      ∧ r.2.mem ((c.tc : Thread nD τ).loc main_v16) = Cert.Spec.negMean (F := Ideal) reducesTo_S16_S_d0 h_S_ (softVec m c)
      ∧ r.2.mem ((c.tc : Thread nD τ).loc main_v17) = Cert.Spec.negMean (F := Ideal) reducesTo_S16_S_d0 h_S_ (hardVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v15 (by decide : main_v15 ∈ Pipeline.restRefs sig spec0)).trans (tail_v15 m hO c),
     ((h c).2 main_v16 (by decide : main_v16 ∈ Pipeline.restRefs sig spec0)).trans (tail_v16 m hO c),
     ((h c).2 main_v17 (by decide : main_v17 ∈ Pipeline.restRefs sig spec0)).trans (tail_v17 m hO c),
     ((h c).1 0).trans (((dats m hO 0 c).arrAt_in 0 rfl _).trans ((A_eq m hO c 0).trans (V_main_arg0 m c))),
     ((h c).2 main_arg1 (by decide : main_arg1 ∈ Pipeline.restRefs sig spec0)).trans (W_main_arg1 m hO (dats m hO) c),
     ((h c).1 1).trans (((dats m hO 0 c).arrAt_in 1 rfl _).trans ((A_eq m hO c 1).trans (V_main_arg2 m c))),
     ((h c).2 main_arg3 (by decide : main_arg3 ∈ Pipeline.restRefs sig spec0)).trans (W_main_arg3 m hO (dats m hO) c)⟩)
    (run_main m ρ hO)

end Cert.KernelIdeal.Gen

end
-- ==== Proof.RefStages.lean ====
/-
  The reference program's run, stated over its stages: every weakly fair execution terminates with each of the three
  results at the stage function of the argument arrays, and the arguments unchanged.

  The program is straight-line, so its run leaves every buffer at the fold of the operations' results over the launch
  contents. The fold is read in seven stretches of the operation list. For each stretch, what it writes is stated
  directly over what the valuation holds when the stretch starts (the row maxima; the log-probabilities from them; the
  mask and the soft term; the label as a column index; the label's log-probability; the two masked sums; the three
  losses), and the buffers that live across it are unchanged. Composing the stretches, each written value is the next
  stage function of the arguments by unfolding that stage's definition once.
-/
import proofs.«424559_j75548474737114_3_alg».proof.Proof.RefRead
import Idealize.ShloMosaic.Lib.StableHlo.Run

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-! ## What the stretches compute, over what they read -/

/-- The rows' maxima. -/
def maxOf (x : (⟨S16x256x10000, .f32⟩ : BufTy).Contents (Elt F)) : (⟨S16x256, .f32⟩ : BufTy).Contents (Elt F) := (Host.reduce FloatOps.maximumf x (constant S_ .f32 0xFF800000#32) reducesTo_S16x256x10000_S16x256_d2 h_S_)

/-- A row shifted by its largest entry: the logits minus the larger of -∞ and the row's maximum `mx`, spread back over the row. -/
def shiftOf (x : (⟨S16x256x10000, .f32⟩ : BufTy).Contents (Elt F)) (mx : (⟨S16x256, .f32⟩ : BufTy).Contents (Elt F)) : (⟨S16x256x10000, .f32⟩ : BufTy).Contents (Elt F) :=
  subf x (broadcastInDim S16x256x10000 ![0, 1, 2] bcast_S16x256x1_S16x256x10000_0_1_2 (broadcastInDim S16x256x1 ![0, 1] bcast_S16x256_S16x256x1_0_1 (maximumf (broadcastInDim S16x256 ![] bcast_S_S16x256 (constant S_ .f32 0xFF800000#32)) mx)))
/-- The log-probabilities from the logits and the rows' maxima. -/
def lpOf (x : (⟨S16x256x10000, .f32⟩ : BufTy).Contents (Elt F)) (mx : (⟨S16x256, .f32⟩ : BufTy).Contents (Elt F)) : (⟨S16x256x10000, .f32⟩ : BufTy).Contents (Elt F) :=
  subf (shiftOf (F := F) x mx) (broadcastInDim S16x256x10000 ![0, 1, 2] bcast_S16x256x1_S16x256x10000_0_1_2 (Host.log (broadcastInDim S16x256x1 ![0, 1] bcast_S16x256_S16x256x1_0_1 (Host.reduceAdd (Host.exp (shiftOf (F := F) x mx)) (constant S_ .f32 0x00000000#32) reducesTo_S16x256x10000_S16x256_d2 h_S_))))

/-- The soft term Σ_v lp_v · s_v of every token. -/
def softTokOf (lp s : (⟨S16x256x10000, .f32⟩ : BufTy).Contents (Elt F)) : (⟨S16x256, .f32⟩ : BufTy).Contents (Elt F) := (Host.reduceAdd (mulf lp s) (constant S_ .f32 0x00000000#32) reducesTo_S16x256x10000_S16x256_d2 h_S_)
/-- Whether a column index lies in the vocabulary. -/
def inRangeOf (i : (⟨S16x256x1x1, .i32⟩ : BufTy).Contents (Elt F)) : (⟨S16x256x1, .i1⟩ : BufTy).Contents (Elt F) :=
  Host.reduce IntOp.andi
    (andi (cmpi .sge i (broadcastInDim S16x256x1x1 ![] bcast_S_S16x256x1x1 (constantI S_ 32 0#32)))
      (cmpi .sle i (broadcastInDim S16x256x1x1 ![0, 1, 2, 3] bcast_S1x1x1x1_S16x256x1x1_0_1_2_3
        (broadcastInDim S1x1x1x1 ![3] bcast_S1_S1x1x1x1_3 (constantI S1 32 9999#32)))))
    (constantI S_ 1 1#1) reducesTo_S16x256x1x1_S16x256x1_d3 h_S_
/-- The log-probability at the label's column, or the fill where the column is outside the vocabulary. -/
def pickOf (lp : (⟨S16x256x10000, .f32⟩ : BufTy).Contents (Elt F)) (i : (⟨S16x256x1x1, .i32⟩ : BufTy).Contents (Elt F)) : (⟨S16x256x1, .f32⟩ : BufTy).Contents (Elt F) :=
  select (inRangeOf (F := F) i) (Host.gather gather_S16x256x10000_S16x256x1x1_S16x256x1_n_2_01_01_2_3_111 lp i)
    (broadcastInDim S16x256x1 ![] bcast_S_S16x256x1 (constant S_ .f32 0x7FC00000#32))
/-- The label-smoothed term of every token, from the label's log-probability and the log-probabilities. -/
def hardTokOf (p : (⟨S16x256x1, .f32⟩ : BufTy).Contents (Elt F)) (lp : (⟨S16x256x10000, .f32⟩ : BufTy).Contents (Elt F)) : (⟨S16x256, .f32⟩ : BufTy).Contents (Elt F) :=
  addf (mulf (broadcastInDim S16x256 ![] bcast_S_S16x256 (constant S_ .f32 0x3F666666#32)) (shapeCast S16x256 p shapeCasts_S16x256x1_S16x256))
    (mulf (broadcastInDim S16x256 ![] bcast_S_S16x256 (constant S_ .f32 0x3727C9F8#32)) (subf (Host.reduceAdd lp (constant S_ .f32 0x00000000#32) reducesTo_S16x256x10000_S16x256_d2 h_S_) (shapeCast S16x256 p shapeCasts_S16x256x1_S16x256)))
/-- A per-token term, masked and summed over the tokens of each batch element. -/
def maskedSumOf (tok mask : (⟨S16x256, .f32⟩ : BufTy).Contents (Elt F)) : (⟨S16, .f32⟩ : BufTy).Contents (Elt F) :=
  Host.reduceAdd (mulf tok mask) (constant S_ .f32 0x00000000#32) reducesTo_S16x256_S16_d1 h_S_
/-- Minus the mean over the batch. -/
def negMeanOf (a : (⟨S16, .f32⟩ : BufTy).Contents (Elt F)) : (⟨S_, .f32⟩ : BufTy).Contents (Elt F) :=
  Host.divf (Host.negf (Host.reduceAdd a (constant S_ .f32 0x00000000#32) reducesTo_S16_S_d0 h_S_)) (constant S_ .f32 0x41800000#32)
/-- Half of each, added. -/
def blendOf (a b : (⟨S16, .f32⟩ : BufTy).Contents (Elt F)) : (⟨S16, .f32⟩ : BufTy).Contents (Elt F) := addf (mulf (broadcastInDim S16 ![] bcast_S_S16 (constant S_ .f32 0x3F000000#32)) a) (mulf (broadcastInDim S16 ![] bcast_S_S16 (constant S_ .f32 0x3F000000#32)) b)

/-! ## The stretches -/

theorem step0 (W : Valuation τ sig (Elt F)) :
    after (((ops (F := F)).drop 0).take 2) W (Proc.devRef .tc main_call0_v0) = maxOf (F := F) (W (Proc.devRef .tc main_arg0)) := by
  simp only [ops, List.drop_succ_cons, List.drop_zero, List.take_succ_cons, List.take_zero]
  after_results_simp
  try simp only [TRef.ofBuf, TRef.toBuf, cast_eq]
  try simp only [maxOf]
  all_goals rfl

theorem step1 (W : Valuation τ sig (Elt F)) :
    after (((ops (F := F)).drop 2).take 13) W (Proc.devRef .tc main_v0) = lpOf (F := F) (W (Proc.devRef .tc main_arg0)) (W (Proc.devRef .tc main_call0_v0)) := by
  simp only [ops, List.drop_succ_cons, List.drop_zero, List.take_succ_cons, List.take_zero]
  after_results_simp
  try simp only [TRef.ofBuf, TRef.toBuf, cast_eq]
  try simp only [lpOf, shiftOf]
  all_goals rfl

theorem step2_mask (W : Valuation τ sig (Elt F)) :
    after (((ops (F := F)).drop 15).take 10) W (Proc.devRef .tc main_v7) = val_main_v7 (F := F) (W (Proc.devRef .tc main_arg3)) := by
  simp only [ops, List.drop_succ_cons, List.drop_zero, List.take_succ_cons, List.take_zero]
  after_results_simp
  try simp only [TRef.ofBuf, TRef.toBuf, cast_eq]
  try simp only [val_main_v1, val_main_v2, val_main_v3, val_main_v4, val_main_v5, val_main_v6, val_main_v7]
  all_goals rfl

theorem step2_soft (W : Valuation τ sig (Elt F)) :
    after (((ops (F := F)).drop 15).take 10) W (Proc.devRef .tc main_v9) = softTokOf (F := F) (W (Proc.devRef .tc main_v0)) (W (Proc.devRef .tc main_arg2)) := by
  simp only [ops, List.drop_succ_cons, List.drop_zero, List.take_succ_cons, List.take_zero]
  after_results_simp
  try simp only [TRef.ofBuf, TRef.toBuf, cast_eq]
  try simp only [softTokOf]
  all_goals rfl

theorem step3 (W : Valuation τ sig (Elt F)) :
    after (((ops (F := F)).drop 25).take 9) W (Proc.devRef .tc main_call1_v5) = val_main_call1_v5 (F := F) (W (Proc.devRef .tc main_arg1)) := by
  simp only [ops, List.drop_succ_cons, List.drop_zero, List.take_succ_cons, List.take_zero]
  after_results_simp
  try simp only [TRef.ofBuf, TRef.toBuf, cast_eq]
  try simp only [val_main_v10, val_main_call1_c, val_main_call1_v0, val_main_call1_v1, val_main_call1_c_0, val_main_call1_v2, val_main_call1_v3, val_main_call1_v4, val_main_call1_v5]
  all_goals rfl

theorem step4 (W : Valuation τ sig (Elt F)) :
    after (((ops (F := F)).drop 34).take 14) W (Proc.devRef .tc main_v11) = pickOf (F := F) (W (Proc.devRef .tc main_v0)) (W (Proc.devRef .tc main_call1_v5)) := by
  simp only [ops, List.drop_succ_cons, List.drop_zero, List.take_succ_cons, List.take_zero]
  after_results_simp
  try simp only [TRef.ofBuf, TRef.toBuf, cast_eq]
  try simp only [pickOf, inRangeOf]
  all_goals rfl

theorem step5_soft (W : Valuation τ sig (Elt F)) :
    after (((ops (F := F)).drop 48).take 17) W (Proc.devRef .tc main_v21) = maskedSumOf (F := F) (W (Proc.devRef .tc main_v9)) (W (Proc.devRef .tc main_v7)) := by
  simp only [ops, List.drop_succ_cons, List.drop_zero, List.take_succ_cons, List.take_zero]
  after_results_simp
  try simp only [TRef.ofBuf, TRef.toBuf, cast_eq]
  try simp only [maskedSumOf]
  all_goals rfl

theorem step5_hard (W : Valuation τ sig (Elt F)) :
    after (((ops (F := F)).drop 48).take 17) W (Proc.devRef .tc main_v23)
      = maskedSumOf (F := F) (hardTokOf (F := F) (W (Proc.devRef .tc main_v11)) (W (Proc.devRef .tc main_v0))) (W (Proc.devRef .tc main_v7)) := by
  simp only [ops, List.drop_succ_cons, List.drop_zero, List.take_succ_cons, List.take_zero]
  after_results_simp
  try simp only [TRef.ofBuf, TRef.toBuf, cast_eq]
  try simp only [maskedSumOf, hardTokOf]
  all_goals rfl

theorem step6_loss (W : Valuation τ sig (Elt F)) :
    after (((ops (F := F)).drop 65).take 22) W (Proc.devRef .tc main_v35) = negMeanOf (F := F) (blendOf (F := F) (W (Proc.devRef .tc main_v21)) (W (Proc.devRef .tc main_v23))) := by
  simp only [ops, List.drop_succ_cons, List.drop_zero, List.take_succ_cons, List.take_zero]
  after_results_simp
  try simp only [TRef.ofBuf, TRef.toBuf, cast_eq]
  try simp only [negMeanOf, blendOf]
  all_goals rfl

theorem step6_soft (W : Valuation τ sig (Elt F)) :
    after (((ops (F := F)).drop 65).take 22) W (Proc.devRef .tc main_v36) = negMeanOf (F := F) (W (Proc.devRef .tc main_v21)) := by
  simp only [ops, List.drop_succ_cons, List.drop_zero, List.take_succ_cons, List.take_zero]
  after_results_simp
  try simp only [TRef.ofBuf, TRef.toBuf, cast_eq]
  try simp only [negMeanOf]
  all_goals rfl

theorem step6_hard (W : Valuation τ sig (Elt F)) :
    after (((ops (F := F)).drop 65).take 22) W (Proc.devRef .tc main_v37) = negMeanOf (F := F) (W (Proc.devRef .tc main_v23)) := by
  simp only [ops, List.drop_succ_cons, List.drop_zero, List.take_succ_cons, List.take_zero]
  after_results_simp
  try simp only [TRef.ofBuf, TRef.toBuf, cast_eq]
  try simp only [negMeanOf]
  all_goals rfl

/-! ## What a stretch leaves alone -/

theorem frame0_arg0 (W : Valuation τ sig (Elt F)) : after (((ops (F := F)).drop 0).take 2) W (Proc.devRef .tc main_arg0) = W (Proc.devRef .tc main_arg0) := by
  simp only [ops, List.drop_succ_cons, List.drop_zero, List.take_succ_cons, List.take_zero]
  after_results_simp

theorem frame0_arg1 (W : Valuation τ sig (Elt F)) : after (((ops (F := F)).drop 0).take 2) W (Proc.devRef .tc main_arg1) = W (Proc.devRef .tc main_arg1) := by
  simp only [ops, List.drop_succ_cons, List.drop_zero, List.take_succ_cons, List.take_zero]
  after_results_simp

theorem frame0_arg2 (W : Valuation τ sig (Elt F)) : after (((ops (F := F)).drop 0).take 2) W (Proc.devRef .tc main_arg2) = W (Proc.devRef .tc main_arg2) := by
  simp only [ops, List.drop_succ_cons, List.drop_zero, List.take_succ_cons, List.take_zero]
  after_results_simp

theorem frame0_arg3 (W : Valuation τ sig (Elt F)) : after (((ops (F := F)).drop 0).take 2) W (Proc.devRef .tc main_arg3) = W (Proc.devRef .tc main_arg3) := by
  simp only [ops, List.drop_succ_cons, List.drop_zero, List.take_succ_cons, List.take_zero]
  after_results_simp

theorem frame1_arg1 (W : Valuation τ sig (Elt F)) : after (((ops (F := F)).drop 2).take 13) W (Proc.devRef .tc main_arg1) = W (Proc.devRef .tc main_arg1) := by
  simp only [ops, List.drop_succ_cons, List.drop_zero, List.take_succ_cons, List.take_zero]
  after_results_simp

theorem frame1_arg2 (W : Valuation τ sig (Elt F)) : after (((ops (F := F)).drop 2).take 13) W (Proc.devRef .tc main_arg2) = W (Proc.devRef .tc main_arg2) := by
  simp only [ops, List.drop_succ_cons, List.drop_zero, List.take_succ_cons, List.take_zero]
  after_results_simp

theorem frame1_arg3 (W : Valuation τ sig (Elt F)) : after (((ops (F := F)).drop 2).take 13) W (Proc.devRef .tc main_arg3) = W (Proc.devRef .tc main_arg3) := by
  simp only [ops, List.drop_succ_cons, List.drop_zero, List.take_succ_cons, List.take_zero]
  after_results_simp

theorem frame2_arg1 (W : Valuation τ sig (Elt F)) : after (((ops (F := F)).drop 15).take 10) W (Proc.devRef .tc main_arg1) = W (Proc.devRef .tc main_arg1) := by
  simp only [ops, List.drop_succ_cons, List.drop_zero, List.take_succ_cons, List.take_zero]
  after_results_simp

theorem frame2_v0 (W : Valuation τ sig (Elt F)) : after (((ops (F := F)).drop 15).take 10) W (Proc.devRef .tc main_v0) = W (Proc.devRef .tc main_v0) := by
  simp only [ops, List.drop_succ_cons, List.drop_zero, List.take_succ_cons, List.take_zero]
  after_results_simp

theorem frame3_v0 (W : Valuation τ sig (Elt F)) : after (((ops (F := F)).drop 25).take 9) W (Proc.devRef .tc main_v0) = W (Proc.devRef .tc main_v0) := by
  simp only [ops, List.drop_succ_cons, List.drop_zero, List.take_succ_cons, List.take_zero]
  after_results_simp

theorem frame3_v7 (W : Valuation τ sig (Elt F)) : after (((ops (F := F)).drop 25).take 9) W (Proc.devRef .tc main_v7) = W (Proc.devRef .tc main_v7) := by
  simp only [ops, List.drop_succ_cons, List.drop_zero, List.take_succ_cons, List.take_zero]
  after_results_simp

theorem frame3_v9 (W : Valuation τ sig (Elt F)) : after (((ops (F := F)).drop 25).take 9) W (Proc.devRef .tc main_v9) = W (Proc.devRef .tc main_v9) := by
  simp only [ops, List.drop_succ_cons, List.drop_zero, List.take_succ_cons, List.take_zero]
  after_results_simp

theorem frame4_v0 (W : Valuation τ sig (Elt F)) : after (((ops (F := F)).drop 34).take 14) W (Proc.devRef .tc main_v0) = W (Proc.devRef .tc main_v0) := by
  simp only [ops, List.drop_succ_cons, List.drop_zero, List.take_succ_cons, List.take_zero]
  after_results_simp

theorem frame4_v7 (W : Valuation τ sig (Elt F)) : after (((ops (F := F)).drop 34).take 14) W (Proc.devRef .tc main_v7) = W (Proc.devRef .tc main_v7) := by
  simp only [ops, List.drop_succ_cons, List.drop_zero, List.take_succ_cons, List.take_zero]
  after_results_simp

theorem frame4_v9 (W : Valuation τ sig (Elt F)) : after (((ops (F := F)).drop 34).take 14) W (Proc.devRef .tc main_v9) = W (Proc.devRef .tc main_v9) := by
  simp only [ops, List.drop_succ_cons, List.drop_zero, List.take_succ_cons, List.take_zero]
  after_results_simp

/-! ## Each written value is the next stage -/

theorem stage_max (a0 : (⟨S16x256x10000, .f32⟩ : BufTy).Contents (Elt F)) : maxOf (F := F) a0 = val_main_call0_v0 (F := F) a0 := rfl
theorem stage_lp (a0 : (⟨S16x256x10000, .f32⟩ : BufTy).Contents (Elt F)) : lpOf (F := F) a0 (val_main_call0_v0 (F := F) a0) = val_main_v0 (F := F) a0 := rfl
theorem stage_soft (a0 a2 : (⟨S16x256x10000, .f32⟩ : BufTy).Contents (Elt F)) : softTokOf (F := F) (val_main_v0 (F := F) a0) a2 = val_main_v9 (F := F) a0 a2 := rfl
theorem stage_pick (a0 : (⟨S16x256x10000, .f32⟩ : BufTy).Contents (Elt F)) (a1 : (⟨S16x256, .i32⟩ : BufTy).Contents (Elt F)) :
    pickOf (F := F) (val_main_v0 (F := F) a0) (val_main_call1_v5 (F := F) a1) = val_main_v11 (F := F) a0 a1 := rfl
theorem stage_softSum (a0 a2 : (⟨S16x256x10000, .f32⟩ : BufTy).Contents (Elt F)) (a3 : (⟨S16, .i32⟩ : BufTy).Contents (Elt F)) :
    maskedSumOf (F := F) (val_main_v9 (F := F) a0 a2) (val_main_v7 (F := F) a3) = val_main_v21 (F := F) a0 a2 a3 := rfl
theorem stage_hardSum (a0 : (⟨S16x256x10000, .f32⟩ : BufTy).Contents (Elt F)) (a1 : (⟨S16x256, .i32⟩ : BufTy).Contents (Elt F)) (a3 : (⟨S16, .i32⟩ : BufTy).Contents (Elt F)) :
    maskedSumOf (F := F) (hardTokOf (F := F) (val_main_v11 (F := F) a0 a1) (val_main_v0 (F := F) a0)) (val_main_v7 (F := F) a3)
      = val_main_v23 (F := F) a0 a1 a3 := rfl
theorem stage_loss (a0 : (⟨S16x256x10000, .f32⟩ : BufTy).Contents (Elt F)) (a1 : (⟨S16x256, .i32⟩ : BufTy).Contents (Elt F)) (a2 : (⟨S16x256x10000, .f32⟩ : BufTy).Contents (Elt F)) (a3 : (⟨S16, .i32⟩ : BufTy).Contents (Elt F)) :
    negMeanOf (F := F) (blendOf (F := F) (val_main_v21 (F := F) a0 a2 a3) (val_main_v23 (F := F) a0 a1 a3))
      = val_main_v35 (F := F) a0 a1 a2 a3 := rfl
theorem stage_lossSoft (a0 a2 : (⟨S16x256x10000, .f32⟩ : BufTy).Contents (Elt F)) (a3 : (⟨S16, .i32⟩ : BufTy).Contents (Elt F)) :
    negMeanOf (F := F) (val_main_v21 (F := F) a0 a2 a3) = val_main_v36 (F := F) a0 a2 a3 := rfl
theorem stage_lossHard (a0 : (⟨S16x256x10000, .f32⟩ : BufTy).Contents (Elt F)) (a1 : (⟨S16x256, .i32⟩ : BufTy).Contents (Elt F)) (a3 : (⟨S16, .i32⟩ : BufTy).Contents (Elt F)) :
    negMeanOf (F := F) (val_main_v23 (F := F) a0 a1 a3) = val_main_v37 (F := F) a0 a1 a3 := rfl

/-! ## The whole list as its seven stretches -/

theorem ops_split : (ops (F := F)) = (((ops (F := F)).drop 0).take 2) ++ ((((ops (F := F)).drop 2).take 13) ++ ((((ops (F := F)).drop 15).take 10) ++ ((((ops (F := F)).drop 25).take 9) ++ ((((ops (F := F)).drop 34).take 14) ++ ((((ops (F := F)).drop 48).take 17) ++ (((ops (F := F)).drop 65).take 22)))))) := by
  simp only [ops, List.drop_succ_cons, List.drop_zero, List.take_succ_cons, List.take_zero, List.cons_append, List.nil_append]

/-- The three results' folds are their stages. -/
theorem after_results_eq (W : Valuation τ sig (Elt F)) :
    after (ops (F := F)) W (Proc.devRef .tc main_v35)
        = val_main_v35 (F := F) (W (Proc.devRef .tc main_arg0)) (W (Proc.devRef .tc main_arg1)) (W (Proc.devRef .tc main_arg2)) (W (Proc.devRef .tc main_arg3))
    ∧ after (ops (F := F)) W (Proc.devRef .tc main_v36) = val_main_v36 (F := F) (W (Proc.devRef .tc main_arg0)) (W (Proc.devRef .tc main_arg2)) (W (Proc.devRef .tc main_arg3))
    ∧ after (ops (F := F)) W (Proc.devRef .tc main_v37) = val_main_v37 (F := F) (W (Proc.devRef .tc main_arg0)) (W (Proc.devRef .tc main_arg1)) (W (Proc.devRef .tc main_arg3)) := by
  have hs : ∀ b, after (ops (F := F)) W b
      = after (((ops (F := F)).drop 65).take 22) (after (((ops (F := F)).drop 48).take 17) (after (((ops (F := F)).drop 34).take 14) (after (((ops (F := F)).drop 25).take 9) (after (((ops (F := F)).drop 15).take 10) (after (((ops (F := F)).drop 2).take 13) (after (((ops (F := F)).drop 0).take 2) W)))))) b := by
    intro b
    conv_lhs => rw [ops_split (F := F)]
    simp only [after_append]
  -- the valuations between the stretches
  generalize hW1 : after (((ops (F := F)).drop 0).take 2) W = W1 at hs
  generalize hW2 : after (((ops (F := F)).drop 2).take 13) W1 = W2 at hs
  generalize hW3 : after (((ops (F := F)).drop 15).take 10) W2 = W3 at hs
  generalize hW4 : after (((ops (F := F)).drop 25).take 9) W3 = W4 at hs
  generalize hW5 : after (((ops (F := F)).drop 34).take 14) W4 = W5 at hs
  generalize hW6 : after (((ops (F := F)).drop 48).take 17) W5 = W6 at hs
  -- what they hold
  have m1 : W1 (Proc.devRef .tc main_call0_v0) = val_main_call0_v0 (F := F) (W (Proc.devRef .tc main_arg0)) := by
    rw [← hW1, step0, stage_max]
  have x1 : W1 (Proc.devRef .tc main_arg0) = (W (Proc.devRef .tc main_arg0)) := by rw [← hW1, frame0_arg0]
  have y1 : W1 (Proc.devRef .tc main_arg1) = (W (Proc.devRef .tc main_arg1)) := by rw [← hW1, frame0_arg1]
  have s1 : W1 (Proc.devRef .tc main_arg2) = (W (Proc.devRef .tc main_arg2)) := by rw [← hW1, frame0_arg2]
  have l1 : W1 (Proc.devRef .tc main_arg3) = (W (Proc.devRef .tc main_arg3)) := by rw [← hW1, frame0_arg3]
  have lp2 : W2 (Proc.devRef .tc main_v0) = val_main_v0 (F := F) (W (Proc.devRef .tc main_arg0)) := by
    rw [← hW2, step1, x1, m1, stage_lp]
  have y2 : W2 (Proc.devRef .tc main_arg1) = (W (Proc.devRef .tc main_arg1)) := by rw [← hW2, frame1_arg1, y1]
  have s2 : W2 (Proc.devRef .tc main_arg2) = (W (Proc.devRef .tc main_arg2)) := by rw [← hW2, frame1_arg2, s1]
  have l2 : W2 (Proc.devRef .tc main_arg3) = (W (Proc.devRef .tc main_arg3)) := by rw [← hW2, frame1_arg3, l1]
  have mk3 : W3 (Proc.devRef .tc main_v7) = val_main_v7 (F := F) (W (Proc.devRef .tc main_arg3)) := by
    rw [← hW3, step2_mask, l2]
  have st3 : W3 (Proc.devRef .tc main_v9) = val_main_v9 (F := F) (W (Proc.devRef .tc main_arg0)) (W (Proc.devRef .tc main_arg2)) := by
    rw [← hW3, step2_soft, lp2, s2, stage_soft]
  have lp3 : W3 (Proc.devRef .tc main_v0) = val_main_v0 (F := F) (W (Proc.devRef .tc main_arg0)) := by rw [← hW3, frame2_v0, lp2]
  have y3 : W3 (Proc.devRef .tc main_arg1) = (W (Proc.devRef .tc main_arg1)) := by rw [← hW3, frame2_arg1, y2]
  have ix4 : W4 (Proc.devRef .tc main_call1_v5) = val_main_call1_v5 (F := F) (W (Proc.devRef .tc main_arg1)) := by
    rw [← hW4, step3, y3]
  have lp4 : W4 (Proc.devRef .tc main_v0) = val_main_v0 (F := F) (W (Proc.devRef .tc main_arg0)) := by rw [← hW4, frame3_v0, lp3]
  have mk4 : W4 (Proc.devRef .tc main_v7) = val_main_v7 (F := F) (W (Proc.devRef .tc main_arg3)) := by rw [← hW4, frame3_v7, mk3]
  have st4 : W4 (Proc.devRef .tc main_v9) = val_main_v9 (F := F) (W (Proc.devRef .tc main_arg0)) (W (Proc.devRef .tc main_arg2)) := by rw [← hW4, frame3_v9, st3]
  have pk5 : W5 (Proc.devRef .tc main_v11) = val_main_v11 (F := F) (W (Proc.devRef .tc main_arg0)) (W (Proc.devRef .tc main_arg1)) := by
    rw [← hW5, step4, lp4, ix4, stage_pick]
  have lp5 : W5 (Proc.devRef .tc main_v0) = val_main_v0 (F := F) (W (Proc.devRef .tc main_arg0)) := by rw [← hW5, frame4_v0, lp4]
  have mk5 : W5 (Proc.devRef .tc main_v7) = val_main_v7 (F := F) (W (Proc.devRef .tc main_arg3)) := by rw [← hW5, frame4_v7, mk4]
  have st5 : W5 (Proc.devRef .tc main_v9) = val_main_v9 (F := F) (W (Proc.devRef .tc main_arg0)) (W (Proc.devRef .tc main_arg2)) := by rw [← hW5, frame4_v9, st4]
  have ss6 : W6 (Proc.devRef .tc main_v21) = val_main_v21 (F := F) (W (Proc.devRef .tc main_arg0)) (W (Proc.devRef .tc main_arg2)) (W (Proc.devRef .tc main_arg3)) := by
    rw [← hW6, step5_soft, st5, mk5, stage_softSum]
  have hs6 : W6 (Proc.devRef .tc main_v23) = val_main_v23 (F := F) (W (Proc.devRef .tc main_arg0)) (W (Proc.devRef .tc main_arg1)) (W (Proc.devRef .tc main_arg3)) := by
    rw [← hW6, step5_hard, pk5, lp5, mk5, stage_hardSum]
  refine ⟨?_, ?_, ?_⟩
  · rw [hs, step6_loss, ss6, hs6, stage_loss]
  · rw [hs, step6_soft, ss6, stage_lossSoft]
  · rw [hs, step6_hard, hs6, stage_lossHard]

/-- No operation writes an argument. -/
theorem after_args (W : Valuation τ sig (Elt F)) :
    after (ops (F := F)) W (Proc.devRef .tc main_arg0) = W (Proc.devRef .tc main_arg0)
    ∧ after (ops (F := F)) W (Proc.devRef .tc main_arg1) = W (Proc.devRef .tc main_arg1)
    ∧ after (ops (F := F)) W (Proc.devRef .tc main_arg2) = W (Proc.devRef .tc main_arg2)
    ∧ after (ops (F := F)) W (Proc.devRef .tc main_arg3) = W (Proc.devRef .tc main_arg3) := by
  refine ⟨?_, ?_, ?_, ?_⟩ <;> after_results_simp

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = val_main_v35 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = val_main_v36 (F := F) (m ((c.tc : Thread nD τ).loc main_arg0)) (m ((c.tc : Thread nD τ).loc main_arg2)) (m ((c.tc : Thread nD τ).loc main_arg3))
      ∧ r.2.mem ((c.tc : Thread nD τ).loc main_v37) = val_main_v37 (F := F) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v35).trans (after_results_eq (launchContents m c)).1,
     (h c main_v36).trans (after_results_eq (launchContents m c)).2.1,
     (h c main_v37).trans (after_results_eq (launchContents m c)).2.2,
     (h c main_arg0).trans (after_args (launchContents m c)).1,
     (h c main_arg1).trans (after_args (launchContents m c)).2.1,
     (h c main_arg2).trans (after_args (launchContents m c)).2.2.1,
     (h c main_arg3).trans (after_args (launchContents m c)).2.2.2⟩)
    (run_seq scopedRefs_eq scopedSems_eq defs main (fun _ => ops) main_eq (fun _ => ops_sub) m ρ)

end Cert.ReferenceIdeal.Stages

end
-- ==== Proof.RefValue.lean ====
/-
  The reference's two per-batch vectors, read at an index, are the specification's reference sums.
-/
import proofs.«424559_j75548474737114_3_alg».proof.Proof.RefRead
import proofs.«424559_j75548474737114_3_alg».proof.Proof.Spec
import Idealize.ShloMosaic.Lib.Pipeline.Value
import Idealize.ShloMosaic.Lib.ValueLayout
import Idealize.ShloMosaic.PureOps.Ideal.Laws
import Idealize.ShloMosaic.PureOps.Reduce
import Idealize.ShloMosaic.Lib.Affine

noncomputable section

namespace Cert.RefValue

open Idealize.ShloMosaic Idealize.ShloMosaic.ValueIdx Cert.ReferenceIdeal Cert.ReferenceIdeal.Gen Cert.ReferenceIdeal.ReadP

open scoped BigOperators

/-! ## The log-probabilities -/

/-- The fold of `max` from a start value is at least the start value, so taking `max` with it again changes nothing. -/
theorem max_fold_self {ι : Type} (s : Finset ι) (c : EReal) (f : ι → EReal) :
    max c (s.fold max c f) = s.fold max c f :=
  max_eq_right ((Finset.le_fold_max c).2 (Or.inl le_rfl))

/-- The shift of token (b, j): its row's largest entry. -/
theorem rowMax_read (X : (⟨S16x256x10000, .f32⟩ : BufTy).Contents (Elt Ideal)) (b : Fin 16) (j : Fin 256) :
    val_main_call0_v2 (F := Ideal) X (ix2 b j) = Cert.Spec.rowMax (Cert.Spec.rowOf X b j) := by
  rw [val_main_call0_v2_apply, val_main_call0_v1_apply, val_main_call0_cst_0_apply]
  have h := Host.reduce_eq_fold_single (FloatOps.maximumf (F := Ideal) (φ := .f32)) X (val_main_call0_cst (F := Ideal))
    reducesTo_S16x256x10000_S16x256_d2 (by decide) h_S_ (ix2 b j)
  unfold val_main_call0_v0
  refine (congrArg (FloatOps.maximumf _) h).trans ?_
  rw [val_main_call0_cst_apply]
  refine (max_fold_self (Finset.univ : Finset (Fin 10000)) (Ideal.ofBits .f32 0xFF800000#32) _).trans ?_
  unfold Cert.Spec.rowMax Cert.Spec.negInf
  refine congrArg (fun f : Fin 10000 → EReal => (Finset.univ : Finset (Fin 10000)).fold max (Ideal.ofBits .f32 0xFF800000#32) f) ?_
  funext v
  exact congrArg X (funext fun a => Fin.ext (by match a with | ⟨0, _⟩ => rfl | ⟨1, _⟩ => rfl | ⟨2, _⟩ => rfl))

/-- A logit less its row's largest entry. -/
theorem shifted_read (X : (⟨S16x256x10000, .f32⟩ : BufTy).Contents (Elt Ideal)) (b : Fin 16) (j : Fin 256) (v : Fin 10000) :
    val_main_call0_v5 (F := Ideal) X (ix3 b j v) = X (ix3 b j v) - Cert.Spec.rowMax (Cert.Spec.rowOf X b j) := by
  rw [val_main_call0_v5_apply, val_main_call0_v4_apply, val_main_call0_v3_apply]
  rw [show idx_main_call0_v3 (idx_main_call0_v4 (ix3 b j v)) = ix2 b j from
    funext fun a => Fin.ext (by match a with | ⟨0, _⟩ => rfl | ⟨1, _⟩ => rfl)]
  rw [rowMax_read]
  rfl

/-- The logarithm of the row's sum of exponentials of the shifted logits. -/
theorem logSum_read (X : (⟨S16x256x10000, .f32⟩ : BufTy).Contents (Elt Ideal)) (b : Fin 16) (j : Fin 256) :
    val_main_call0_v9 (F := Ideal) X (ix3 b j (0 : Fin 1)) = Cert.Spec.rowLogSum (Cert.Spec.rowOf X b j) := by
  rw [val_main_call0_v9_apply, val_main_call0_v8_apply, val_main_call0_v7_apply, val_main_call0_cst_1_apply]
  unfold Cert.Spec.rowLogSum
  rw [Ideal.hostUnary_log_def]
  refine congrArg Ideal.log ?_
  rw [Ideal.ofBits_def, Ideal.ofBits_zero_f32, zero_add]
  refine Finset.sum_congr rfl fun v _ => ?_
  rw [val_main_call0_v6_apply, Ideal.hostUnary_exp_def]
  rw [show idx_main_call0_v7 (idx_main_call0_v8 (ix3 b j (0 : Fin 1))) v = ix3 b j v from
    funext fun a => Fin.ext (by match a with | ⟨0, _⟩ => rfl | ⟨1, _⟩ => rfl | ⟨2, _⟩ => rfl)]
  rw [shifted_read]
  rfl

/-- The reference's log-softmax at (b, j, v) is the log-probability of column v of token (b, j). -/
theorem lp_read (X : (⟨S16x256x10000, .f32⟩ : BufTy).Contents (Elt Ideal)) (b : Fin 16) (j : Fin 256) (v : Fin 10000) :
    val_main_v0 (F := Ideal) X (ix3 b j v) = Cert.Spec.lp (Cert.Spec.rowOf X b j) v := by
  rw [val_main_v0_apply, val_main_call0_v10_apply, shifted_read]
  rw [show idx_main_call0_v10 (ix3 b j v) = ix3 b j (0 : Fin 1) from
    funext fun a => Fin.ext (by match a with | ⟨0, _⟩ => rfl | ⟨1, _⟩ => rfl | ⟨2, _⟩ => rfl)]
  rw [logSum_read]
  rfl

/-! ## The mask and the soft term -/

/-- The mask of token (b, j): position j compared, signed, with the length of batch element b, the bit read unsigned. -/
theorem mask_read (Yl : (⟨S16, .i32⟩ : BufTy).Contents (Elt Ideal)) (b : Fin 16) (j : Fin 256) :
    val_main_v7 (F := Ideal) Yl (ix2 b j) = Cert.Spec.rMask (BitVec.ofNat 32 j.val) (Yl (ix1 b)) := by
  rw [val_main_v7_apply, val_main_v6_apply, val_main_v4_apply, val_main_v2_apply, val_main_v1_apply,
    val_main_v5_apply, val_main_v3_apply]
  rw [show idx_main_v3 (idx_main_v5 (ix2 b j)) = ix1 b from
    funext fun a => Fin.ext (by match a with | ⟨0, _⟩ => rfl)]
  rfl

/-- The soft term of token (b, j): Σ_v lp_v · s_v. -/
theorem softTok_read (X S : (⟨S16x256x10000, .f32⟩ : BufTy).Contents (Elt Ideal)) (b : Fin 16) (j : Fin 256) :
    val_main_v9 (F := Ideal) X S (ix2 b j) = Cert.Spec.rSoftTok (Cert.Spec.rowOf X b j) (Cert.Spec.rowOf S b j) := by
  rw [val_main_v9_apply, val_main_cst_apply, Ideal.ofBits_def, Ideal.ofBits_zero_f32, zero_add]
  unfold Cert.Spec.rSoftTok
  refine Finset.sum_congr rfl fun v _ => ?_
  rw [val_main_v8_apply]
  rw [show idx_main_v9 (ix2 b j) v = ix3 b j v from
    funext fun a => Fin.ext (by match a with | ⟨0, _⟩ => rfl | ⟨1, _⟩ => rfl | ⟨2, _⟩ => rfl)]
  rw [lp_read]
  rfl

/-! ## The log-probability at the label

The reference takes it by a gather along the vocabulary axis: a negative index is first wrapped by the vocabulary size, the
wrapped index is tested against [0, 9999], the gather clamps it into that range, and an index that failed the test reads
a NaN instead. For a label inside the vocabulary the wrap leaves it alone, the test holds and the clamp is the label. -/

/-- The program's gather dimension numbers: batching over (b, j), the vocabulary axis collapsed and indexed. -/
abbrev gd : GatherDims S16x256x10000 S16x256x1x1 S16x256x1 := gather_S16x256x10000_S16x256x1x1_S16x256x1_n_2_01_01_2_3_111

/-- The gather at (b, j, 0): the operand at (b, j, c), c the start index at (b, j, 0, 0) read signed and clamped into
    [0, 9999]. -/
theorem gather_read {α : Type} (x : S16x256x10000.Idx → α) (idx : IVec S16x256x1x1 32) (b : Fin 16) (j : Fin 256) :
    Host.gather gd x idx (ix3 b j (0 : Fin 1))
      = x (ix3 b j ⟨min (idx (ix4 b j (0 : Fin 1) (0 : Fin 1))).toInt.toNat 9999, by omega⟩) := by
  unfold Host.gather
  congr 1
  funext a
  refine Fin.ext ?_
  match a with
  | ⟨0, _⟩ =>
    show gd.start (ix3 b j (0 : Fin 1)) idx 0 + gd.batchCoord (ix3 b j (0 : Fin 1)) 0 + gd.offCoord (ix3 b j (0 : Fin 1)) 0 = b.val
    rw [gd.start_batching _ idx 0 (by decide), gd.offCoord_eq_zero _ 0 (fun h => ((gd.mem_sKept _).mp h).2 (by decide))]
    simp only [Nat.add_zero, Nat.zero_add]
    unfold GatherDims.batchCoord
    rw [dif_pos (show (0 : Fin 3) ∈ gd.operandBatchingDims by decide)]
    rfl
  | ⟨1, _⟩ =>
    show gd.start (ix3 b j (0 : Fin 1)) idx 1 + gd.batchCoord (ix3 b j (0 : Fin 1)) 1 + gd.offCoord (ix3 b j (0 : Fin 1)) 1 = j.val
    rw [gd.start_batching _ idx 1 (by decide), gd.offCoord_eq_zero _ 1 (fun h => ((gd.mem_sKept _).mp h).2 (by decide))]
    simp only [Nat.add_zero, Nat.zero_add]
    unfold GatherDims.batchCoord
    rw [dif_pos (show (1 : Fin 3) ∈ gd.operandBatchingDims by decide)]
    rfl
  | ⟨2, _⟩ =>
    show gd.start (ix3 b j (0 : Fin 1)) idx 2 + gd.batchCoord (ix3 b j (0 : Fin 1)) 2 + gd.offCoord (ix3 b j (0 : Fin 1)) 2
      = min (idx (ix4 b j (0 : Fin 1) (0 : Fin 1))).toInt.toNat 9999
    rw [gd.batchCoord_eq_zero _ 2 (by decide), gd.offCoord_eq_zero _ 2 (fun h => ((gd.mem_sKept _).mp h).1 (by decide))]
    simp only [Nat.add_zero]
    unfold GatherDims.start
    rw [dif_pos (show (2 : Fin 3) ∈ gd.startIndexMap by decide)]
    have hsi : gd.siIdx (ix3 b j (0 : Fin 1)) ⟨List.idxOf (2 : Fin 3) gd.startIndexMap,
        List.idxOf_lt_length_iff.2 (show (2 : Fin 3) ∈ gd.startIndexMap by decide)⟩ = ix4 b j (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- A left fold by `and` from 1 over words that are all 1 is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 by decide]
    exact ih fun n hn => h n (List.mem_cons_of_mem _ hn)

/-- A label inside the vocabulary is not negative, so the wrap by the vocabulary size leaves it alone. -/
theorem wrap_id (y : BitVec 32) (hy : Cert.Spec.InVocab y) :
    Scalar.select (IntOp.cmpi .slt y 0#32) (IntOp.addi y 10000#32) y = y := by
  obtain ⟨h1, _⟩ := hy
  have h : IntOp.cmpi .slt y 0#32 = 0#1 := eq_zero_of_ne_one fun e => by
    have h2 := IntOp.cmpi_slt.1 e
    have h0 : (0#32 : BitVec 32).toInt = 0 := by decide
    omega
  rw [h, select_zero]

/-- A label inside the vocabulary passes the test 0 ≤ y ≤ 9999. -/
theorem inRange (y : BitVec 32) (hy : Cert.Spec.InVocab y) :
    IntOp.andi (IntOp.cmpi .sge y 0#32) (IntOp.cmpi .sle y 9999#32) = 1#1 := by
  obtain ⟨h1, h2⟩ := hy
  have h0 : (0#32 : BitVec 32).toInt = 0 := by decide
  have h9 : (9999#32 : BitVec 32).toInt = 9999 := by decide
  exact IntOp.andi_eq_one.2 ⟨IntOp.cmpi_sge.2 (by omega), IntOp.cmpi_sle.2 (by omega)⟩

/-- The start index the gather reads is the label itself. -/
theorem startIdx_read (Ys : (⟨S16x256, .i32⟩ : BufTy).Contents (Elt Ideal)) (hY : ∀ i, Cert.Spec.InVocab (Ys i)) (i : S16x256x1x1.Idx) :
    val_main_call1_v5 (F := Ideal) Ys i = Ys (idx_main_v10 (idx_main_call1_v5 i)) := by
  rw [val_main_call1_v5_apply, val_main_call1_v4_apply, val_main_call1_v1_apply, val_main_call1_v3_apply,
    val_main_call1_v0_apply, val_main_call1_c_apply, val_main_call1_v2_apply, val_main_call1_c_0_apply, val_main_v10_apply]
  exact wrap_id _ (hY _)

/-- The range test holds at every index. -/
theorem inRange_read (Ys : (⟨S16x256, .i32⟩ : BufTy).Contents (Elt Ideal)) (hY : ∀ i, Cert.Spec.InVocab (Ys i)) (i : S16x256x1x1.Idx) :
    val_main_call1_v11 (F := Ideal) Ys i = 1#1 := by
  rw [val_main_call1_v11_apply, val_main_call1_v7_apply, val_main_call1_v10_apply, startIdx_read Ys hY,
    val_main_call1_v6_apply, val_main_call1_c_2_apply, val_main_call1_v9_apply, val_main_call1_v8_apply,
    val_main_call1_c_1_apply]
  exact inRange _ (hY _)

/-- The gathered value of token (b, j) is the log-probability at its label. -/
theorem lpY_read (X : (⟨S16x256x10000, .f32⟩ : BufTy).Contents (Elt Ideal)) (Ys : (⟨S16x256, .i32⟩ : BufTy).Contents (Elt Ideal)) (hY : ∀ i, Cert.Spec.InVocab (Ys i)) (b : Fin 16) (j : Fin 256) :
    val_main_v12 (F := Ideal) X Ys (ix2 b j) = Cert.Spec.rLpY (Cert.Spec.rowOf X b j) (Ys (ix2 b j)) := by
  rw [val_main_v12_apply]
  rw [show idx_main_v12 (ix2 b j) = ix3 b j (0 : Fin 1) from funext fun a => Fin.ext (by
    have hb := b.isLt
    have hj := j.isLt
    match a with
    | ⟨0, _⟩ => show (b.val * 256 + j.val) / 256 = b.val; omega
    | ⟨1, _⟩ => show (b.val * 256 + j.val) / 1 % 256 = j.val; omega
    | ⟨2, _⟩ => rfl)]
  rw [val_main_v11_apply]
  have h12 : val_main_call1_v12 (F := Ideal) Ys (ix3 b j (0 : Fin 1)) = 1#1 := by
    unfold val_main_call1_v12
    rw [Host.reduce_eq_foldl, val_main_call1_c_3_apply]
    exact foldl_andi_ones _ _ fun n _ => inRange_read Ys hY n
  rw [h12, select_one]
  unfold val_main_call1_v13
  rw [gather_read, lp_read]
  have hs : val_main_call1_v5 (F := Ideal) Ys (ix4 b j (0 : Fin 1) (0 : Fin 1)) = Ys (ix2 b j) := by
    rw [startIdx_read Ys hY]
    exact congrArg Ys (funext fun a => Fin.ext (by
      have hb := b.isLt
      have hj := j.isLt
      match a with
      | ⟨0, _⟩ => show (((b.val * 256 + j.val) * 1 + 0) * 1 + 0) / 256 = b.val; omega
      | ⟨1, _⟩ => show (((b.val * 256 + j.val) * 1 + 0) * 1 + 0) / 1 % 256 = j.val; omega))
  unfold Cert.Spec.rLpY Cert.Spec.labelIdx
  refine congrArg (Cert.Spec.lp (Cert.Spec.rowOf X b j)) (Fin.ext ?_)
  show min (val_main_call1_v5 (F := Ideal) Ys (ix4 b j (0 : Fin 1) (0 : Fin 1))).toInt.toNat 9999
    = min (Ys (ix2 b j)).toInt.toNat 9999
  rw [hs]

/-! ## The label-smoothed term -/

/-- The sum of a token's log-probabilities over the vocabulary. -/
theorem lpSum_read (X : (⟨S16x256x10000, .f32⟩ : BufTy).Contents (Elt Ideal)) (b : Fin 16) (j : Fin 256) :
    val_main_v13 (F := Ideal) X (ix2 b j) = Cert.Spec.rLpSum (Cert.Spec.rowOf X b j) := by
  rw [val_main_v13_apply, val_main_cst_0_apply, Ideal.ofBits_def, Ideal.ofBits_zero_f32, zero_add]
  unfold Cert.Spec.rLpSum
  refine Finset.sum_congr rfl fun v _ => ?_
  rw [show idx_main_v13 (ix2 b j) v = ix3 b j v from
    funext fun a => Fin.ext (by match a with | ⟨0, _⟩ => rfl | ⟨1, _⟩ => rfl | ⟨2, _⟩ => rfl)]
  exact lp_read X b j v

/-- The label-smoothed term of token (b, j). -/
theorem hardTok_read (X : (⟨S16x256x10000, .f32⟩ : BufTy).Contents (Elt Ideal)) (Ys : (⟨S16x256, .i32⟩ : BufTy).Contents (Elt Ideal)) (hY : ∀ i, Cert.Spec.InVocab (Ys i)) (b : Fin 16) (j : Fin 256) :
    val_main_v19 (F := Ideal) X Ys (ix2 b j) = Cert.Spec.rHardTok (Cert.Spec.rowOf X b j) (Ys (ix2 b j)) := by
  rw [val_main_v19_apply, val_main_v15_apply, val_main_v18_apply, val_main_v16_apply, val_main_v14_apply,
    val_main_v17_apply, val_main_cst_1_apply, val_main_cst_2_apply, lpY_read X Ys hY, lpSum_read]
  rfl

/-- The reference's soft vector at batch element b: the masked sum over the 256 tokens of Σ_v lp_v · s_v.
    `X`, `S` are the logits and soft labels, `Yl` the sequence lengths. -/
theorem soft_eq (X S : (⟨S16x256x10000, .f32⟩ : BufTy).Contents (Elt Ideal)) (Yl : (⟨S16, .i32⟩ : BufTy).Contents (Elt Ideal))
    (b : Fin 16) :
    val_main_v21 (F := Ideal) X S Yl (ix1 b) = Cert.Spec.rSoftB X S Yl b := by
  rw [val_main_v21_apply, val_main_cst_3_apply, Ideal.ofBits_def, Ideal.ofBits_zero_f32, zero_add]
  unfold Cert.Spec.rSoftB
  refine Finset.sum_congr rfl fun k _ => ?_
  rw [val_main_v20_apply]
  rw [show idx_main_v21 (ix1 b) k = ix2 b k from
    funext fun a => Fin.ext (by match a with | ⟨0, _⟩ => rfl | ⟨1, _⟩ => rfl)]
  rw [softTok_read, mask_read]
  rfl

/-- The reference's label-smoothed vector at batch element b, for labels inside the vocabulary.
    `Ys` are the labels. -/
theorem hard_eq (X : (⟨S16x256x10000, .f32⟩ : BufTy).Contents (Elt Ideal)) (Ys : (⟨S16x256, .i32⟩ : BufTy).Contents (Elt Ideal))
    (Yl : (⟨S16, .i32⟩ : BufTy).Contents (Elt Ideal)) (hY : ∀ i, Cert.Spec.InVocab (Ys i)) (b : Fin 16) :
    val_main_v23 (F := Ideal) X Ys Yl (ix1 b) = Cert.Spec.rHardB X Ys Yl b := by
  rw [val_main_v23_apply, val_main_cst_4_apply, Ideal.ofBits_def, Ideal.ofBits_zero_f32, zero_add]
  unfold Cert.Spec.rHardB
  refine Finset.sum_congr rfl fun k _ => ?_
  rw [val_main_v22_apply]
  rw [show idx_main_v23 (ix1 b) k = ix2 b k from
    funext fun a => Fin.ext (by match a with | ⟨0, _⟩ => rfl | ⟨1, _⟩ => rfl)]
  rw [hardTok_read X Ys hY, mask_read]
  rfl

end Cert.RefValue

end
-- ==== Proof.Algebra.lean ====
/-
  The kernel's way of computing the per-batch sums equals the reference's, for real-valued logits and soft labels
  and labels inside the vocabulary.

  For a row of real numbers the largest entry m and L = log Σ exp (x - m) are real numbers, so each token's terms
  are identities between real numbers: Σ x·s - (L + m)·Σ s = Σ ((x - m) - L)·s, Σ x - 10000·(L + m) = Σ ((x - m) - L),
  and the sum that compares every column with the label has the label's logit as its only nonzero term.  The two
  mask conversions agree on both values of the comparison bit, and the 256 positions of a batch element are the
  128 positions of tile 0 followed by the 128 positions of tile 1.
-/
import proofs.«424559_j75548474737114_3_alg».proof.Proof.Spec
import Mathlib.Data.EReal.Basic
import Mathlib.Data.EReal.Operations
import Mathlib.Algebra.BigOperators.Fin
import Mathlib.Analysis.SpecialFunctions.Log.Basic

noncomputable section

namespace Cert.Spec

open Idealize.ShloMosaic Idealize.ShloMosaic.ValueIdx
open scoped BigOperators

namespace Alg

/-! ## Constants, masks, positions -/

/-- The starting value of the running maximum is -∞. -/
theorem negInf_eq : negInf = ⊥ := by
  unfold negInf
  simp [Ideal.ofBits, Ideal.ieee]

/-- The pattern 0x461C4000 is 2^13 · (1 + 0x1C4000 / 2^23) = 10000. -/
theorem cVocab_eq : cVocab = ((10000 : ℝ) : EReal) := by
  unfold cVocab
  simp [Ideal.ofBits, Ideal.ieee, -EReal.coe_mul]; norm_num

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A one-bit word widened to 32 bits and read signed is the same number (0 or 1) as the bit read unsigned. -/
theorem kMask_eq (pos len : BitVec 32) : kMask pos len = rMask pos len := by
  unfold kMask rMask
  rcases BitVec.eq_zero_or_eq_one (IntOp.cmpi .slt pos len) with h | h <;> rw [h] <;> simp

/-- Row r of tile 0 is position r. -/
theorem tilePos_zero (r : Fin 128) : tilePos r 0#32 = BitVec.ofNat 32 (128 * 0 + r.val) := by
  unfold tilePos
  simp

/-- Row r of tile 1 is position 128 + r. -/
theorem tilePos_one (r : Fin 128) : tilePos r 1#32 = BitVec.ofNat 32 (128 * 1 + r.val) := by
  unfold tilePos
  apply BitVec.eq_of_toNat_eq
  simp
  omega

/-- A sum over 256 positions is the sum over the first 128 plus the sum over the last 128. -/
theorem sum_split {M : Type} [AddCommMonoid M] (f : Fin 256 → M) :
    ∑ j : Fin 256, f j
      = (∑ r : Fin 128, f ⟨128 * 0 + r.val, by omega⟩) + ∑ r : Fin 128, f ⟨128 * 1 + r.val, by omega⟩ := by
  have := Fin.sum_univ_add (a := 128) (b := 128) (f : Fin (128 + 128) → M)
  rw [show (∑ j : Fin 256, f j) = ∑ j : Fin (128 + 128), (f : Fin (128 + 128) → M) j from rfl, this]
  rfl

/-! ## A row of real numbers: its largest entry and its log-sum are real -/

/-- The running maximum from -∞ over a nonempty set of real numbers is a real number. -/
theorem fold_max_real (f : Fin 10000 → ℝ) (s : Finset (Fin 10000)) (hs : s.Nonempty) :
    ∃ m : ℝ, s.fold max (⊥ : EReal) (fun v => (f v : EReal)) = (m : EReal) := by
  classical
  induction hs using Finset.Nonempty.cons_induction with
  | singleton a => exact ⟨f a, by simp⟩
  | cons a s ha hs ih =>
    obtain ⟨m, hm⟩ := ih
    exact ⟨max (f a) m, by
      rw [Finset.fold_cons, hm]; exact (EReal.coe_strictMono.monotone.map_max).symm⟩

/-- A row of real entries is the coercion of a real row f; its largest entry is a real m, and since
    Σ exp (f - m) is a positive real, its logarithm L is a real too. -/
theorem row_real (x : Row) (hx : ∀ v, IsReal (x v)) :
    ∃ (f : Fin 10000 → ℝ) (m L : ℝ),
      x = (fun v => (f v : EReal)) ∧ rowMax x = m ∧ rowLogSum x = L := by
  choose f hf using hx
  obtain rfl : x = fun v => (f v : EReal) := funext hf
  obtain ⟨m, hm⟩ : ∃ m : ℝ, rowMax (fun v => (f v : EReal)) = m := by
    unfold rowMax; rw [negInf_eq]; exact fold_max_real f _ Finset.univ_nonempty
  refine ⟨f, m, Real.log (∑ v, Real.exp (f v - m)), rfl, hm, ?_⟩
  unfold rowLogSum
  rw [hm]
  have h1 : ∀ v, Ideal.exp ((f v : EReal) - (m : EReal)) = ((Real.exp (f v - m) : ℝ) : EReal) := by
    intro v; rw [← EReal.coe_sub, Ideal.exp_coe]
  simp only [h1]
  rw [← coe_sum]
  have hpos : 0 < ∑ v : Fin 10000, Real.exp (f v - m) :=
    Finset.sum_pos (fun v _ => Real.exp_pos _) Finset.univ_nonempty
  rw [Ideal.log_coe, if_neg (not_le.mpr hpos)]

/-! ## One token -/

/-- Σ x·s - (L + m)·Σ s = Σ ((x - m) - L)·s. -/
theorem kSoftTok_eq (x s : Row) (hx : ∀ v, IsReal (x v)) (hs : ∀ v, IsReal (s v)) :
    kSoftTok x s = rSoftTok x s := by
  obtain ⟨f, m, L, rfl, hm, hL⟩ := row_real x hx
  choose g hg using hs
  obtain rfl : s = fun v => (g v : EReal) := funext hg
  unfold kSoftTok rSoftTok kLse lp
  rw [hm, hL]
  simp only [← EReal.coe_mul, ← EReal.coe_sub, ← EReal.coe_add, ← coe_sum]
  rw [EReal.coe_eq_coe_iff]
  rw [Finset.mul_sum, ← Finset.sum_sub_distrib]
  apply Finset.sum_congr rfl; intro v _; ring

/-- Σ x - 10000·(L + m) = Σ ((x - m) - L): a constant summed over the 10000 columns is 10000 times it. -/
theorem kLpSum_eq (x : Row) (hx : ∀ v, IsReal (x v)) : kLpSum x = rLpSum x := by
  obtain ⟨f, m, L, rfl, hm, hL⟩ := row_real x hx
  unfold kLpSum rLpSum kLse lp
  rw [hm, hL, cVocab_eq]
  simp only [← EReal.coe_mul, ← EReal.coe_sub, ← EReal.coe_add, ← coe_sum]
  rw [EReal.coe_eq_coe_iff]
  rw [Finset.sum_sub_distrib, Finset.sum_sub_distrib, Finset.sum_const, Finset.sum_const,
    Finset.card_univ, Fintype.card_fin]
  simp only [nsmul_eq_mul]; push_cast; ring

/-- A label in the vocabulary, read signed and clamped, is the label read unsigned. -/
theorem labelIdx_val (y : BitVec 32) (hy : InVocab y) : (labelIdx y).val = y.toNat := by
  obtain ⟨h0, h1⟩ := hy
  unfold labelIdx
  simp only
  rw [BitVec.toInt_eq_toNat_cond] at h0 h1 ⊢
  have := y.isLt
  split_ifs at h0 h1 ⊢ <;> omega

/-- Comparing every column with the label keeps exactly the label's logit: column v, below 10000 < 2^32,
    equals the label as a word only when v is the label. -/
theorem select_sum (x : Row) (y : BitVec 32) (hy : InVocab y) :
    (∑ v : Fin 10000, Scalar.select (IntOp.cmpi .eq (BitVec.ofNat 32 v.val) y) (x v) (0 : EReal))
      = x (labelIdx y) := by
  rw [Finset.sum_eq_single (labelIdx y)]
  · have h : BitVec.ofNat 32 (labelIdx y).val = y := by
      rw [labelIdx_val y hy]; simp
    simp [Scalar.select, IntOp.cmpi, h]
  · intro v _ hv
    have hne : BitVec.ofNat 32 v.val ≠ y := by
      intro h
      apply hv
      apply Fin.ext
      rw [labelIdx_val y hy, ← h]
      have := v.isLt
      simp
      omega
    simp [Scalar.select, IntOp.cmpi, beq_eq_false_iff_ne.mpr hne]
  · intro h; exact absurd (Finset.mem_univ _) h

/-- x_y - (L + m) = (x_y - m) - L. -/
theorem kLpY_eq (x : Row) (hx : ∀ v, IsReal (x v)) (y : BitVec 32) (hy : InVocab y) :
    kLpY x y = rLpY x y := by
  obtain ⟨f, m, L, rfl, hm, hL⟩ := row_real x hx
  unfold kLpY rLpY
  rw [select_sum _ y hy]
  unfold kLse lp
  rw [hm, hL]
  simp only [← EReal.coe_sub, ← EReal.coe_add]
  rw [EReal.coe_eq_coe_iff]; ring

/-- The label-smoothed term is the same expression of the label's log-probability and the row's sum of
    log-probabilities in both programs. -/
theorem kHardTok_eq (x : Row) (hx : ∀ v, IsReal (x v)) (y : BitVec 32) (hy : InVocab y) :
    kHardTok x y = rHardTok x y := by
  unfold kHardTok rHardTok
  rw [kLpY_eq x hx y hy, kLpSum_eq x hx]

end Alg

open Alg

/-! ## One batch element -/

/-- The soft sums agree. -/
theorem kSoftB_eq (X S : S16x256x10000.Idx → EReal) (Yl : S16.Idx → BitVec 32)
    (hX : ∀ i, IsReal (X i)) (hS : ∀ i, IsReal (S i)) (b : Fin 16) :
    kSoftB X S Yl b = rSoftB X S Yl b := by
  unfold kSoftB rSoftB kTileSoft
  rw [zero_add, sum_split]
  congr 1
  · apply Finset.sum_congr rfl; intro r _
    rw [kMask_eq, kSoftTok_eq (tileRows X b 0 r) (tileRows S b 0 r) (fun v => hX _) (fun v => hS _),
      tilePos_zero]
    rfl
  · apply Finset.sum_congr rfl; intro r _
    rw [kMask_eq, kSoftTok_eq (tileRows X b 1 r) (tileRows S b 1 r) (fun v => hX _) (fun v => hS _),
      tilePos_one]
    rfl

/-- The label-smoothed sums agree. -/
theorem kHardB_eq (X : S16x256x10000.Idx → EReal) (Ys : S16x256.Idx → BitVec 32) (Yl : S16.Idx → BitVec 32)
    (hX : ∀ i, IsReal (X i)) (hY : ∀ i, InVocab (Ys i)) (b : Fin 16) :
    kHardB X Ys Yl b = rHardB X Ys Yl b := by
  unfold kHardB rHardB kTileHard
  rw [zero_add, sum_split]
  congr 1
  · apply Finset.sum_congr rfl; intro r _
    rw [kMask_eq, kHardTok_eq (tileRows X b 0 r) (fun v => hX _) (tileLabels Ys b 0 r) (hY _),
      tilePos_zero]
    rfl
  · apply Finset.sum_congr rfl; intro r _
    rw [kMask_eq, kHardTok_eq (tileRows X b 1 r) (fun v => hX _) (tileLabels Ys b 1 r) (hY _),
      tilePos_one]
    rfl

end Cert.Spec

end
-- ==== Proof.PreFacts.lean ====
/-
  What the precondition says of the inputs: every logit and every soft label is a real number, and every label is a
  vocabulary index.
-/
import proofs.«424559_j75548474737114_3_alg».proof.Pre_finite_inputs
import proofs.«424559_j75548474737114_3_alg».proof.Proof.Gen.Pre_finite_inputs
import proofs.«424559_j75548474737114_3_alg».proof.Proof.Spec
import Idealize.ShloMosaic.Lib.ReduceAll

noncomputable section

namespace Cert.PreFacts

open Idealize.ShloMosaic Idealize.ShloMosaic.ValueIdx

/-- A shape of rank zero has a single index. -/
instance : Subsingleton Cert.Pre_finite_inputs.S_.Idx := ⟨fun _ _ => funext fun d => d.elim0⟩

/-- The single-precision pattern 0x7F800000 (all exponent bits set, no fraction, sign clear) is +∞. -/
theorem ofBits_posInf : Ideal.ofBits .f32 0x7F800000#32 = (⊤ : EReal) := by
  simp [Ideal.ofBits, Ideal.ieee]

/-- An extended real whose absolute value max a (-a) stays strictly below +∞ is neither infinity, hence a real. -/
theorem isReal_of_abs_lt_top (a : EReal) (h : max a (-a) < ⊤) : Cert.Spec.IsReal a := by
  induction a using EReal.rec with
  | bot => simp at h
  | top => simp at h
  | coe r => exact ⟨r, rfl⟩

/-- The element test |a| < +∞ coming out true says a is a real number. -/
theorem isReal_of_test (a : EReal)
    (h : Ideal.cmp .olt (max a (-a)) (Ideal.ofBits .f32 0x7F800000#32) = 1#1) : Cert.Spec.IsReal a := by
  rw [ofBits_posInf] at h
  refine isReal_of_abs_lt_top a ?_
  by_contra hn
  simp [Ideal.cmp, hn] at h

/-- The precondition, decoded. -/
theorem of_pre (X : FVec Ideal Cert.Pre_finite_inputs.S16x256x10000 .f32) (Ys : IVec Cert.Pre_finite_inputs.S16x256 32)
    (S : FVec Ideal Cert.Pre_finite_inputs.S16x256x10000 .f32) (Yl : IVec Cert.Pre_finite_inputs.S16 32)
    (h : Cert.Pre_finite_inputs.fn (F := Ideal) X Ys S Yl = fun _ => 1#1) :
    (∀ i, Cert.Spec.IsReal (X i)) ∧ (∀ i, Cert.Spec.IsReal (S i)) ∧ (∀ i, Cert.Spec.InVocab (Ys i)) := by
  -- the one bit of the result is a conjunction of four "for all" tests
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ⟨?_, ?_⟩⟩
  · -- |X i| < +∞
    exact isReal_of_test (X i) (Host.reduce_andi_all _ _ _ _ _ h1 i)
  · -- |S i| < +∞
    exact isReal_of_test (S i) (Host.reduce_andi_all _ _ _ _ _ h2 i)
  · -- 0 ≤ Ys i, read signed
    have e : IntOp.cmpi .sge (Ys i) 0#32 = 1#1 := Host.reduce_andi_all _ _ _ _ _ h3 i
    have := IntOp.cmpi_sge.1 e
    simpa using this
  · -- Ys i < 10000, read signed
    have e : IntOp.cmpi .slt (Ys i) 10000#32 = 1#1 := Host.reduce_andi_all _ _ _ _ _ h4 i
    have := IntOp.cmpi_slt.1 e
    rw [show (10000#32 : BitVec 32).toInt = 10000 from by decide] at this
    exact this

end Cert.PreFacts

end
-- ==== Proof.lean ====
/-
  The distillation loss kernel against its reference, over the extended reals.

  Both programs end with the same closing arithmetic on two vectors over the 16 batch elements: the masked sum of the
  soft-label term Σ_v lp_v · s_v and of the label-smoothed term over the 256 tokens. The kernel accumulates each over two
  tiles of 128 tokens from a zero start and never forms the log-probabilities lp; the reference forms them and sums once.
  Under the precondition — real logits and soft labels, labels inside the vocabulary — the two vectors agree entry by
  entry: every quantity involved is then a real number, so the kernel's Σ x·s − lse·Σ s, Σ x − 10000·lse and one-hot pick
  of the label's logit are the reference's three sums of lp by distributivity, and splitting the 256 tokens into two
  tiles only regroups a sum. The frames of the two kernel programs hold for every contents of the prefetched lengths
  (no index map reads them); the reference's frame is its run with the results dropped; the idealization changed nothing.
-/
import proofs.«424559_j75548474737114_3_alg».proof.Defs
import proofs.«424559_j75548474737114_3_alg».proof.Proof.Gen.Kernel
import proofs.«424559_j75548474737114_3_alg».proof.Proof.Gen.Kernel.Frame
import proofs.«424559_j75548474737114_3_alg».proof.Proof.Gen.KernelIdeal
import proofs.«424559_j75548474737114_3_alg».proof.Proof.Gen.ReferenceIdeal
import proofs.«424559_j75548474737114_3_alg».proof.Proof.Gen.Pre_finite_inputs
import proofs.«424559_j75548474737114_3_alg».proof.Proof.KernelValue
import proofs.«424559_j75548474737114_3_alg».proof.Proof.RefStages
import proofs.«424559_j75548474737114_3_alg».proof.Proof.RefValue
import proofs.«424559_j75548474737114_3_alg».proof.Proof.Algebra
import proofs.«424559_j75548474737114_3_alg».proof.Proof.PreFacts
import Idealize.ShloMosaic.Adequacy
import Idealize.ShloMosaic.Init

noncomputable section

namespace Cert.Proof

open Idealize.ShloMosaic Idealize.ShloMosaic.ValueIdx Idealize.SL.Sem

/-- The kernel's frame: its side condition on the prefetched lengths is empty. -/
theorem frame_kernel : Cert.frame_Kernel := fun m ρ _ => Cert.Kernel.Gen.frame m ρ trivial

/-- The idealized kernel's frame, likewise. -/
theorem frame_kernelIdeal : Cert.frame_KernelIdeal := fun m ρ _ => Cert.KernelIdeal.Gen.frame m ρ trivial

/-- The reference's frame: its run, the results dropped. -/
theorem frame_reference : Cert.frame_ReferenceIdeal := fun m ρ _ =>
  (θ_run Cert.ReferenceIdeal.defs _ _).mono (fun _ h c => (h c).2.2.2) (Cert.ReferenceIdeal.Stages.run (F := Ideal) m ρ)

/-- The idealization recorded no rewrite. -/
theorem preserves : Cert.preserves_Kernel_KernelIdeal := trivial

open Cert.ReferenceIdeal.ReadP in
/-- The three losses agree. -/
theorem algebraic : Cert.algebraic_KernelIdeal_ReferenceIdeal := by
  intro m ρ m' ρ' hpre hagree
  have hO : Cert.KernelIdeal.Gen.Ok m := trivial
  refine ⟨_, _, _, Cert.KernelIdeal.Gen.run_value m ρ hO, ?_⟩
  refine (θ_run Cert.ReferenceIdeal.defs _ _).mono (fun _ h c => ?_) (Cert.ReferenceIdeal.Stages.run (F := Ideal) m' ρ')
  obtain ⟨h35, h36, h37, hargs⟩ := h c
  obtain ⟨a0, a1, a2, a3⟩ := hagree c
  obtain ⟨hX, hS, hY⟩ := Cert.PreFacts.of_pre _ _ _ _ (hpre c)
  -- the reference's two per-batch vectors are the kernel's
  have hsoft : val_main_v21 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
      = Cert.KernelIdeal.Gen.softVec m c := by
    rw [a0, a2, a3]
    funext i
    obtain ⟨b, rfl⟩ : ∃ b : Fin 16, i = ix1 b := ⟨i 0, eq_ix1 i⟩
    exact ((Cert.RefValue.soft_eq _ _ _ b).trans (Cert.Spec.kSoftB_eq _ _ _ hX hS b).symm).trans
      (Cert.KernelIdeal.Gen.softVec_apply m c b).symm
  have hhard : val_main_v23 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
      = Cert.KernelIdeal.Gen.hardVec m c := by
    rw [a0, a1, a3]
    funext i
    obtain ⟨b, rfl⟩ : ∃ b : Fin 16, i = ix1 b := ⟨i 0, eq_ix1 i⟩
    exact ((Cert.RefValue.hard_eq _ _ _ hY b).trans (Cert.Spec.kHardB_eq _ _ _ hX hY b).symm).trans
      (Cert.KernelIdeal.Gen.hardVec_apply m c b).symm
  refine ⟨h35.trans ?_, h36.trans ?_, h37.trans ?_, hargs⟩
  · refine (show val_main_v35 (F := Ideal) _ _ _ _
        = Cert.Spec.negMean (F := Ideal) Cert.ReferenceIdeal.Facts₀.reducesTo_S16_S_d0 Cert.ReferenceIdeal.Facts₀.h_S_
            (Cert.Spec.blend (F := Ideal) Cert.ReferenceIdeal.Facts₀.bcast_S_S16 (val_main_v21 (F := Ideal) _ _ _) (val_main_v23 (F := Ideal) _ _ _)) from rfl).trans ?_
    rw [hsoft, hhard]
  · refine (show val_main_v36 (F := Ideal) _ _ _
        = Cert.Spec.negMean (F := Ideal) Cert.ReferenceIdeal.Facts₀.reducesTo_S16_S_d0 Cert.ReferenceIdeal.Facts₀.h_S_
            (val_main_v21 (F := Ideal) _ _ _) from rfl).trans ?_
    rw [hsoft]
  · refine (show val_main_v37 (F := Ideal) _ _ _
        = Cert.Spec.negMean (F := Ideal) Cert.ReferenceIdeal.Facts₀.reducesTo_S16_S_d0 Cert.ReferenceIdeal.Facts₀.h_S_
            (val_main_v23 (F := Ideal) _ _ _) from rfl).trans ?_
    rw [hhard]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
